-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S32x128 : Shape := ⟨2, ![32, 128]⟩
abbrev S32 : Shape := ⟨1, ![32]⟩
abbrev S4x32 : Shape := ⟨2, ![4, 32]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S4x32 : S_.BroadcastsInDim S4x32 (![] : Fin 0 → Fin S4x32.rank)
  reducesTo_S4x32_S_d0_1 : S4x32.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg4 : FVec F S4x32 .f32) (main_arg5 : IVec S2x1600000 32) (main_v13 : IVec S_ 1) (main_v16 : IVec S4x32 1) : IVec S_ 1 :=
  let main_c_5 : IVec S_ 1 := constantI S_ 1 1#1
  let main_v17 : IVec S_ 1 := (fun x v => Host.reduce IntOp.andi x v reducesTo_S4x32_S_d0_1 h_S_) main_v16 main_c_5
  let main_v18 : IVec S_ 1 := andi main_v13 main_v17
  let main_v19 : FVec F S4x32 .f32 := Host.absf main_arg4
  let main_cst_6 : FVec F S_ .f32 := constant S_ .f32 0x7F800000#32
  let main_v20 : FVec F S4x32 .f32 := broadcastInDim S4x32 ![] bcast_S_S4x32 main_cst_6
  let main_v21 : IVec S4x32 1 := cmpf .olt main_v19 main_v20
  let main_c_7 : IVec S_ 1 := constantI S_ 1 1#1
  let main_v22 : IVec S_ 1 := (fun x v => Host.reduce IntOp.andi x v reducesTo_S4x32_S_d0_1 h_S_) main_v21 main_c_7
  let main_v23 : IVec S_ 1 := andi main_v18 main_v22
  let main_c_8 : IVec S_ 32 := constantI S_ 32 0#32
  let main_v24 : IVec S2x1600000 32 := broadcastInDim S2x1600000 ![] bcast_S_S2x1600000 main_c_8
  let main_v25 : IVec S2x1600000 1 := cmpi .sge main_arg5 main_v24
  let main_c_9 : IVec S_ 32 := constantI S_ 32 100000#32
  let main_v26 : IVec S2x1600000 32 := broadcastInDim S2x1600000 ![] bcast_S_S2x1600000 main_c_9
  let main_v27 : IVec S2x1600000 1 := cmpi .slt main_arg5 main_v26
  let main_v28 : IVec S2x1600000 1 := andi main_v25 main_v27
  let main_c_10 : IVec S_ 1 := constantI S_ 1 1#1
  let main_v29 : IVec S_ 1 := (fun x v => Host.reduce IntOp.andi x v reducesTo_S2x1600000_S_d0_1 h_S_) main_v28 main_c_10
  let main_v30 : IVec S_ 1 := andi main_v23 main_v29
  main_v30

def fn {F : FTy → Type} [FloatOps F] (main_arg0 : FVec F S100000x128 .f32) (main_arg1 : FVec F S32x128 .f32) (main_arg2 : FVec F S32 .f32) (main_arg3 : FVec F S4x32 .f32) (main_arg4 : FVec F S4x32 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S4x32 .f32 := Host.absf main_arg3
  let main_cst_4 : FVec F S_ .f32 := constant S_ .f32 0x7F800000#32
  let main_v15 : FVec F S4x32 .f32 := broadcastInDim S4x32 ![] bcast_S_S4x32 main_cst_4
  let main_v16 : IVec S4x32 1 := cmpf .olt main_v14 main_v15
  fn_part1 (F := F) main_arg4 main_arg5 main_v13 main_v16
-- ==== Kernel.lean ====
abbrev S100000x128 : Shape := ⟨2, ![100000, 128]⟩
abbrev S32x128 : Shape := ⟨2, ![32, 128]⟩
abbrev S32 : Shape := ⟨1, ![32]⟩
abbrev S4x32 : Shape := ⟨2, ![4, 32]⟩
abbrev S2x1600000 : Shape := ⟨2, ![2, 1600000]⟩
abbrev S1x1600000 : Shape := ⟨2, ![1, 1600000]⟩
abbrev S1600000 : Shape := ⟨1, ![1600000]⟩
abbrev S100000x40 : Shape := ⟨2, ![100000, 40]⟩
abbrev S10000x128 : Shape := ⟨2, ![10000, 128]⟩
abbrev S10000x40 : Shape := ⟨2, ![10000, 40]⟩
abbrev S128x32 : Shape := ⟨2, ![128, 32]⟩
abbrev S10000x32 : Shape := ⟨2, ![10000, 32]⟩
abbrev S1x32 : Shape := ⟨2, ![1, 32]⟩
abbrev S32x4 : Shape := ⟨2, ![32, 4]⟩
abbrev S10000x4 : Shape := ⟨2, ![10000, 4]⟩
abbrev S100000x32 : Shape := ⟨2, ![100000, 32]⟩
abbrev S100000x4 : Shape := ⟨2, ![100000, 4]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x4 : Shape := ⟨2, ![1600000, 4]⟩
abbrev S1600000x32 : Shape := ⟨2, ![1600000, 32]⟩
abbrev S1600000x1x32 : Shape := ⟨3, ![1600000, 1, 32]⟩
abbrev S1600000x4x1 : Shape := ⟨3, ![1600000, 4, 1]⟩
abbrev S1600000x4x32 : Shape := ⟨3, ![1600000, 4, 32]⟩
abbrev S1600000x128 : Shape := ⟨2, ![1600000, 128]⟩

abbrev nBuf : Space → Nat
  | .hbm => 137
  | .vmem => 8
  | .smem => 0
  | _ => 0

abbrev hbmTy0_0 (i : Nat) : BufTy := match i % 128 with
  | 0 => ⟨S100000x128, .f32⟩
  | 1 => ⟨S32x128, .f32⟩
  | 2 => ⟨S32, .f32⟩
  | 3 => ⟨S4x32, .f32⟩
  | 4 => ⟨S4x32, .f32⟩
  | 5 => ⟨S2x1600000, .i32⟩
  | 6 => ⟨S1x1600000, .i32⟩
  | 7 => ⟨S1600000, .i32⟩
  | 8 => ⟨S1x1600000, .i32⟩
  | 9 => ⟨S1600000, .i32⟩
  | 10 => ⟨S100000x40, .f32⟩
  | 11 => ⟨S100000x32, .f32⟩
  | 12 => ⟨S100000x4, .f32⟩
  | 13 => ⟨S100000x4, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1, .i32⟩
  | 23 => ⟨S_, .i32⟩
  | 24 => ⟨S1600000x1, .i32⟩
  | 25 => ⟨S1600000x1, .i1⟩
  | 26 => ⟨S1x1, .i32⟩
  | 27 => ⟨S1600000x1, .i32⟩
  | 28 => ⟨S1600000x1, .i1⟩
  | 29 => ⟨S1600000x1, .i1⟩
  | 30 => ⟨S_, .i1⟩
  | 31 => ⟨S1600000, .i1⟩
  | 32 => ⟨S1600000x4, .f32⟩
  | 33 => ⟨S1600000x4, .i1⟩
  | 34 => ⟨S_, .f32⟩
  | 35 => ⟨S1600000x4, .f32⟩
  | 36 => ⟨S1600000x4, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1, .i32⟩
  | 46 => ⟨S_, .i32⟩
  | 47 => ⟨S1600000x1, .i32⟩
  | 48 => ⟨S1600000x1, .i1⟩
  | 49 => ⟨S1x1, .i32⟩
  | 50 => ⟨S1600000x1, .i32⟩
  | 51 => ⟨S1600000x1, .i1⟩
  | 52 => ⟨S1600000x1, .i1⟩
  | 53 => ⟨S_, .i1⟩
  | 54 => ⟨S1600000, .i1⟩
  | 55 => ⟨S1600000x4, .f32⟩
  | 56 => ⟨S1600000x4, .i1⟩
  | 57 => ⟨S_, .f32⟩
  | 58 => ⟨S1600000x4, .f32⟩
  | 59 => ⟨S1600000x4, .f32⟩
  | 60 => ⟨S1600000x4, .f32⟩
  | 61 => ⟨S_, .f32⟩
  | 62 => ⟨S1600000x4, .f32⟩
  | 63 => ⟨S1600000x4, .i1⟩
  | 64 => ⟨S_, .f32⟩
  | 65 => ⟨S1600000x4, .f32⟩
  | 66 => ⟨S1600000x4, .f32⟩
  | 67 => ⟨S1600000x4, .f32⟩
  | 68 => ⟨S_, .f32⟩
  | 69 => ⟨S_, .f32⟩
  | 70 => ⟨S1600000x4, .f32⟩
  | 71 => ⟨S1600000x4, .f32⟩
  | 72 => ⟨S1600000x4, .f32⟩
  | 73 => ⟨S_, .f32⟩
  | 74 => ⟨S100000x4, .f32⟩
  | 75 => ⟨S1600000x1, .i32⟩
  | 76 => ⟨S100000x4, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1, .i32⟩
  | 86 => ⟨S_, .i32⟩
  | 87 => ⟨S1600000x1, .i32⟩
  | 88 => ⟨S1600000x1, .i1⟩
  | 89 => ⟨S1x1, .i32⟩
  | 90 => ⟨S1600000x1, .i32⟩
  | 91 => ⟨S1600000x1, .i1⟩
  | 92 => ⟨S1600000x1, .i1⟩
  | 93 => ⟨S_, .i1⟩
  | 94 => ⟨S1600000, .i1⟩
  | 95 => ⟨S1600000x4, .f32⟩
  | 96 => ⟨S1600000x4, .i1⟩
  | 97 => ⟨S_, .f32⟩
  | 98 => ⟨S1600000x4, .f32⟩
  | 99 => ⟨S1600000x4, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1, .i32⟩
  | 109 => ⟨S_, .i32⟩
  | 110 => ⟨S1600000x1, .i32⟩
  | 111 => ⟨S1600000x1, .i1⟩
  | 112 => ⟨S1x1, .i32⟩
  | 113 => ⟨S1600000x1, .i32⟩
  | 114 => ⟨S1600000x1, .i1⟩
  | 115 => ⟨S1600000x1, .i1⟩
  | 116 => ⟨S_, .i1⟩
  | 117 => ⟨S1600000, .i1⟩
  | 118 => ⟨S1600000x32, .f32⟩
  | 119 => ⟨S1600000x32, .i1⟩
  | 120 => ⟨S_, .f32⟩
  | 121 => ⟨S1600000x32, .f32⟩
  | 122 => ⟨S1600000x32, .f32⟩
  | 123 => ⟨S_, .f32⟩
  | 124 => ⟨S1600000x4, .f32⟩
  | 125 => ⟨S1600000x4, .f32⟩
  | 126 => ⟨S1600000x4, .f32⟩
  | 127 => ⟨S1600000x1x32, .f32⟩
  | _ => ⟨S100000x128, .f32⟩

abbrev hbmTy0_1 (i : Nat) : BufTy := match i % 128 with
  | 0 => ⟨S1600000x4x1, .f32⟩
  | 1 => ⟨S1600000x4x32, .f32⟩
  | 2 => ⟨S1600000x4x32, .f32⟩
  | 3 => ⟨S1600000x4x32, .f32⟩
  | 4 => ⟨S1600000x128, .f32⟩
  | 5 => ⟨S_, .f32⟩
  | 6 => ⟨S100000x128, .f32⟩
  | 7 => ⟨S1600000x1, .i32⟩
  | 8 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S32x128, .f32⟩
  | .local _ .vmem, ⟨3, _⟩ => ⟨S32, .f32⟩
  | .local _ .vmem, ⟨4, _⟩ => ⟨S4x32, .f32⟩
  | .local _ .vmem, ⟨5, _⟩ => ⟨S4x32, .f32⟩
  | .local _ .vmem, ⟨6, _⟩ => ⟨S10000x40, .f32⟩
  | .local _ .vmem, ⟨7, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v8 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v9 : Ref sig .tc := ⟨.hbm, 59, rfl⟩
abbrev main_v10 : Ref sig .tc := ⟨.hbm, 60, rfl⟩
abbrev main_cst : Ref sig .tc := ⟨.hbm, 61, rfl⟩
abbrev main_v11 : Ref sig .tc := ⟨.hbm, 62, rfl⟩
abbrev main_v12 : Ref sig .tc := ⟨.hbm, 63, rfl⟩
abbrev main_cst_0 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_cst_1 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_cst_2 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_call3_cst : Ref sig .tc := ⟨.hbm, 97, rfl⟩
abbrev main_call3_v15 : Ref sig .tc := ⟨.hbm, 98, rfl⟩
abbrev main_v23 : Ref sig .tc := ⟨.hbm, 99, rfl⟩
abbrev main_call4_c : Ref sig .tc := ⟨.hbm, 100, rfl⟩
abbrev main_call4_v0 : Ref sig .tc := ⟨.hbm, 101, rfl⟩
abbrev main_call4_v1 : Ref sig .tc := ⟨.hbm, 102, rfl⟩
abbrev main_call4_c_0 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_v5 : Ref sig .tc := ⟨.hbm, 107, rfl⟩
abbrev main_call4_c_1 : Ref sig .tc := ⟨.hbm, 108, rfl⟩
abbrev main_call4_c_2 : Ref sig .tc := ⟨.hbm, 109, rfl⟩
abbrev main_call4_v6 : Ref sig .tc := ⟨.hbm, 110, rfl⟩
abbrev main_call4_v7 : Ref sig .tc := ⟨.hbm, 111, rfl⟩
abbrev main_call4_v8 : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_c_3 : Ref sig .tc := ⟨.hbm, 116, rfl⟩
abbrev main_call4_v12 : Ref sig .tc := ⟨.hbm, 117, rfl⟩
abbrev main_call4_v13 : Ref sig .tc := ⟨.hbm, 118, rfl⟩
abbrev main_call4_v14 : Ref sig .tc := ⟨.hbm, 119, rfl⟩
abbrev main_call4_cst : Ref sig .tc := ⟨.hbm, 120, rfl⟩
abbrev main_call4_v15 : Ref sig .tc := ⟨.hbm, 121, rfl⟩
abbrev main_v24 : Ref sig .tc := ⟨.hbm, 122, rfl⟩
abbrev main_cst_3 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩
abbrev main_v30 : Ref sig .tc := ⟨.hbm, 129, rfl⟩
abbrev main_v31 : Ref sig .tc := ⟨.hbm, 130, rfl⟩
abbrev main_v32 : Ref sig .tc := ⟨.hbm, 131, rfl⟩
abbrev main_v33 : Ref sig .tc := ⟨.hbm, 132, rfl⟩
abbrev main_cst_4 : Ref sig .tc := ⟨.hbm, 133, rfl⟩
abbrev main_v34 : Ref sig .tc := ⟨.hbm, 134, rfl⟩
abbrev main_v35 : Ref sig .tc := ⟨.hbm, 135, rfl⟩
abbrev main_v36 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  transposes_S32x128_p1_0_S128x32 : S32x128.Transposes [1, 0] S128x32
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S4x32_S4x32_0_0 : ∀ a, (![0, 0] : Fin 2 → Nat) a + S4x32.size a ≤ S4x32.size a
  h_S4x32 : 0 < S4x32.numel
  transposes_S4x32_p1_0_S32x4 : S4x32.Transposes [1, 0] S32x4
  concatenates_S10000x32_S10000x4_S10000x4_S10000x40_d1 : Shape.Concatenates [S10000x32, S10000x4, S10000x4] S10000x40 1
  inb_S10000x40_S10000x40_0_0 : ∀ a, (![0, 0] : Fin 2 → Nat) a + S10000x40.size a ≤ S10000x40.size a
  h_S10000x40 : 0 < S10000x40.numel
  slices_S100000x40_S100000x32_0_0 : S100000x40.Slices ![0, 0] S100000x32
  slices_S100000x40_S100000x4_0_32 : S100000x40.Slices ![0, 32] S100000x4
  slices_S100000x40_S100000x4_0_36 : S100000x40.Slices ![0, 36] S100000x4
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x4_0 : S1600000.BroadcastsInDim S1600000x4 (![0] : Fin 1 → Fin S1600000x4.rank)
  bcast_S_S1600000x4 : S_.BroadcastsInDim S1600000x4 (![] : Fin 0 → Fin S1600000x4.rank)
  reducesTo_S1600000x4_S_d0_1 : S1600000x4.ReducesTo [0, 1] S_
  bcast_S_S100000x4 : S_.BroadcastsInDim S100000x4 (![] : Fin 0 → Fin S100000x4.rank)
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  bcast_S1600000x32_S1600000x1x32_0_2 : S1600000x32.BroadcastsInDim S1600000x1x32 (![0, 2] : Fin 2 → Fin S1600000x1x32.rank)
  bcast_S1600000x4_S1600000x4x1_0_1 : S1600000x4.BroadcastsInDim S1600000x4x1 (![0, 1] : Fin 2 → Fin S1600000x4x1.rank)
  bcast_S1600000x1x32_S1600000x4x32_0_1_2 : S1600000x1x32.BroadcastsInDim S1600000x4x32 (![0, 1, 2] : Fin 3 → Fin S1600000x4x32.rank)
  bcast_S1600000x4x1_S1600000x4x32_0_1_2 : S1600000x4x1.BroadcastsInDim S1600000x4x32 (![0, 1, 2] : Fin 3 → Fin S1600000x4x32.rank)
  shapeCasts_S1600000x4x32_S1600000x128 : S1600000x4x32.ShapeCasts S1600000x128
  bcast_S_S100000x128 : S_.BroadcastsInDim S100000x128 (![] : Fin 0 → Fin S100000x128.rank)
  dot_S10000x128_S128x32_S10000x32_1_0_0_1_n_n_wf : DotDims.WF S10000x128 S128x32 S10000x32 [1] [0] [0] [1] [] []
  dot_S10000x32_S32x4_S10000x4_1_0_0_1_n_n_wf : DotDims.WF S10000x32 S32x4 S10000x4 [1] [0] [0] [1] [] []
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  gather_S100000x32_S1600000x1_S1600000x32_1_0_n_n_0_1_132_wf : GatherDims.WF S100000x32 S1600000x1 S1600000x32 [1] [0] [] [0] [] 1 ![1, 32]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x32.size a ≤ S4x32.size a
  hwx0_3 : ∀ i : grid0.Coords, EltTy.bits .f32 = 32 ∨ (Rect.block (s := S4x32) S4x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x32.size a ≤ S4x32.size a
  hwx0_4 : ∀ i : grid0.Coords, EltTy.bits .f32 = 32 ∨ (Rect.block (s := S4x32) S4x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x40.size a ≤ S100000x40.size a
  hwx0_5 : ∀ i : grid0.Coords, EltTy.bits .f32 = 32 ∨ (Rect.block (s := S100000x40) S10000x40.size (cc0_transform_5 i) (hinb0_5 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x32_S32x4_S10000x4_1_0_0_1_n_n : DotDims S10000x32 S32x4 S10000x4 where
  lhsContracting := [1]
  rhsContracting := [0]
  lhsNonContracting := [0]
  rhsNonContracting := [1]
  lhsBatch := []
  rhsBatch := []
  wf := dot_S10000x32_S32x4_S10000x4_1_0_0_1_n_n_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S10000x40.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S32x128 : Shape := ⟨2, ![32, 128]⟩
abbrev S32 : Shape := ⟨1, ![32]⟩
abbrev S4x32 : Shape := ⟨2, ![4, 32]⟩
abbrev S2x1600000 : Shape := ⟨2, ![2, 1600000]⟩
abbrev S1x1600000 : Shape := ⟨2, ![1, 1600000]⟩
abbrev S1600000 : Shape := ⟨1, ![1600000]⟩
abbrev S128x32 : Shape := ⟨2, ![128, 32]⟩
abbrev S100000x32 : Shape := ⟨2, ![100000, 32]⟩
abbrev S1x32 : Shape := ⟨2, ![1, 32]⟩
abbrev S32x4 : Shape := ⟨2, ![32, 4]⟩
abbrev S100000x4 : Shape := ⟨2, ![100000, 4]⟩
abbrev S_ : Shape := ⟨0, ![]⟩
abbrev S1600000x1 : Shape := ⟨2, ![1600000, 1]⟩
abbrev S1600000x4 : Shape := ⟨2, ![1600000, 4]⟩
abbrev S1600000x32 : Shape := ⟨2, ![1600000, 32]⟩
abbrev S1600000x1x32 : Shape := ⟨3, ![1600000, 1, 32]⟩
abbrev S1600000x4x1 : Shape := ⟨3, ![1600000, 4, 1]⟩
abbrev S1600000x4x32 : Shape := ⟨3, ![1600000, 4, 32]⟩
abbrev S100000x4x32 : Shape := ⟨3, ![100000, 4, 32]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S32x128, .f32⟩
  | .hbm, ⟨2, _⟩ => ⟨S32, .f32⟩
  | .hbm, ⟨3, _⟩ => ⟨S4x32, .f32⟩
  | .hbm, ⟨4, _⟩ => ⟨S4x32, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S128x32, .f32⟩
  | .hbm, ⟨11, _⟩ => ⟨S100000x32, .f32⟩
  | .hbm, ⟨12, _⟩ => ⟨S1x32, .f32⟩
  | .hbm, ⟨13, _⟩ => ⟨S100000x32, .f32⟩
  | .hbm, ⟨14, _⟩ => ⟨S100000x32, .f32⟩
  | .hbm, ⟨15, _⟩ => ⟨S32x4, .f32⟩
  | .hbm, ⟨16, _⟩ => ⟨S100000x4, .f32⟩
  | .hbm, ⟨17, _⟩ => ⟨S32x4, .f32⟩
  | .hbm, ⟨18, _⟩ => ⟨S100000x4, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x4, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x4, .f32⟩
  | .hbm, ⟨37, _⟩ => ⟨S1600000x4, .f32⟩
  | .hbm, ⟨38, _⟩ => ⟨S_, .f32⟩
  | .hbm, ⟨39, _⟩ => ⟨S1600000x4, .f32⟩
  | .hbm, ⟨40, _⟩ => ⟨S1600000x4, .i1⟩
  | .hbm, ⟨41, _⟩ => ⟨S_, .f32⟩
  | .hbm, ⟨42, _⟩ => ⟨S1600000x4, .f32⟩
  | .hbm, ⟨43, _⟩ => ⟨S1600000x4, .f32⟩
  | .hbm, ⟨44, _⟩ => ⟨S1600000x4, .f32⟩
  | .hbm, ⟨45, _⟩ => ⟨S_, .f32⟩
  | .hbm, ⟨46, _⟩ => ⟨S_, .f32⟩
  | .hbm, ⟨47, _⟩ => ⟨S1600000x4, .f32⟩
  | .hbm, ⟨48, _⟩ => ⟨S1600000x4, .f32⟩
  | .hbm, ⟨49, _⟩ => ⟨S1600000x4, .f32⟩
  | .hbm, ⟨50, _⟩ => ⟨S_, .f32⟩
  | .hbm, ⟨51, _⟩ => ⟨S100000x4, .f32⟩
  | .hbm, ⟨52, _⟩ => ⟨S1600000x1, .i32⟩
  | .hbm, ⟨53, _⟩ => ⟨S100000x4, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x4, .f32⟩
  | .hbm, ⟨63, _⟩ => ⟨S_, .f32⟩
  | .hbm, ⟨64, _⟩ => ⟨S1600000x4, .f32⟩
  | .hbm, ⟨65, _⟩ => ⟨S1600000x4, .f32⟩
  | .hbm, ⟨66, _⟩ => ⟨S1600000x4, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x32, .f32⟩
  | .hbm, ⟨76, _⟩ => ⟨S1600000x1x32, .f32⟩
  | .hbm, ⟨77, _⟩ => ⟨S1600000x4x1, .f32⟩
  | .hbm, ⟨78, _⟩ => ⟨S1600000x4x32, .f32⟩
  | .hbm, ⟨79, _⟩ => ⟨S1600000x4x32, .f32⟩
  | .hbm, ⟨80, _⟩ => ⟨S1600000x4x32, .f32⟩
  | .hbm, ⟨81, _⟩ => ⟨S_, .f32⟩
  | .hbm, ⟨82, _⟩ => ⟨S100000x4x32, .f32⟩
  | .hbm, ⟨83, _⟩ => ⟨S1600000x1, .i32⟩
  | .hbm, ⟨84, _⟩ => ⟨S100000x4x32, .f32⟩
  | .hbm, ⟨85, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_9 : Ref sig .tc := ⟨.hbm, 67, rfl⟩
abbrev main_v50 : Ref sig .tc := ⟨.hbm, 68, rfl⟩
abbrev main_v51 : Ref sig .tc := ⟨.hbm, 69, rfl⟩
abbrev main_c_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S32x128_S128x32_1_0 : S32x128.Transposes [1, 0] S128x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  transposes_S4x32_S32x4_1_0 : S4x32.Transposes [1, 0] S32x4
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x4 : S_.BroadcastsInDim S1600000x4 (![] : Fin 0 → Fin S1600000x4.rank)
  reducesTo_S1600000x4_S_d0_1 : S1600000x4.ReducesTo [0, 1] S_
  h_S_ : 0 < S_.numel
  bcast_S_S100000x4 : S_.BroadcastsInDim S100000x4 (![] : Fin 0 → Fin S100000x4.rank)
  bcast_S1600000x32_S1600000x1x32_0_2 : S1600000x32.BroadcastsInDim S1600000x1x32 (![0, 2] : Fin 2 → Fin S1600000x1x32.rank)
  bcast_S1600000x4_S1600000x4x1_0_1 : S1600000x4.BroadcastsInDim S1600000x4x1 (![0, 1] : Fin 2 → Fin S1600000x4x1.rank)
  bcast_S1600000x1x32_S1600000x4x32_0_1_2 : S1600000x1x32.BroadcastsInDim S1600000x4x32 (![0, 1, 2] : Fin 3 → Fin S1600000x4x32.rank)
  bcast_S1600000x4x1_S1600000x4x32_0_1_2 : S1600000x4x1.BroadcastsInDim S1600000x4x32 (![0, 1, 2] : Fin 3 → Fin S1600000x4x32.rank)
  bcast_S_S100000x4x32 : S_.BroadcastsInDim S100000x4x32 (![] : Fin 0 → Fin S100000x4x32.rank)
  shapeCasts_S100000x4x32_S100000x128 : S100000x4x32.ShapeCasts S100000x128
  dot_S100000x128_S128x32_S100000x32_1_0_0_1_n_n_wf : DotDims.WF S100000x128 S128x32 S100000x32 [1] [0] [0] [1] [] []
  dot_S100000x32_S32x4_S100000x4_1_0_0_1_n_n_wf : DotDims.WF S100000x32 S32x4 S100000x4 [1] [0] [0] [1] [] []
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  gather_S100000x32_S1600000x1_S1600000x32_1_0_n_n_0_1_132_wf : GatherDims.WF S100000x32 S1600000x1 S1600000x32 [1] [0] [] [0] [] 1 ![1, 32]
  scatter_S100000x4x32_S1600000x1_S1600000x4x32_12_0_0_1_wf : ScatterDims.WF S100000x4x32 S1600000x1 S1600000x4x32 [1, 2] [0] [0] 1

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x4_S100000x4_1_0_0_1_n_n : DotDims S100000x32 S32x4 S100000x4 where
  lhsContracting := [1]
  rhsContracting := [0]
  lhsNonContracting := [0]
  rhsNonContracting := [1]
  lhsBatch := []
  rhsBatch := []
  wf := dot_S100000x32_S32x4_S100000x4_1_0_0_1_n_n_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x4x32_S1600000x1_S1600000x4x32_12_0_0_1 : ScatterDims S100000x4x32 S1600000x1 S1600000x4x32 where
  updateWindowDims := [1, 2]
  insertedWindowDims := [0]
  scatterDimsToOperandDims := [0]
  indexVectorDim := 1
  wf := scatter_S100000x4x32_S1600000x1_S1600000x4x32_12_0_0_1_wf

class Facts : Prop extends Facts₀ where

variable [Facts]
-- ==== Proof.BitsBase.lean ====
/-
  The kernel program around its one region: the host lines that follow the region, stretch by
  stretch, and the buffer contents the region finds (the contents after the four host lines that cut the
  edge list into its source row and its destination row).
-/
import proofs.«408319_j53352083751473_3_alg».proof.Proof.Gen.Kernel.Launch
import proofs.«408319_j53352083751473_3_alg».proof.Proof.Gen.Kernel.Skeleton
import proofs.«408319_j53352083751473_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- The host lines after the region: the three column slices of the region's result, the two gathers of the
    attention terms, the leaky rectifier, the shift by the global maximum and the exponential with its
    per-source sums, the gathers of those sums and of the projected rows, and the weighted messages summed
    per destination. -/
abbrev tailOps : List (List (HloOp τ sig (Elt F))) :=
  [hostOps1, hostOps1_1, hostOps1_2, hostOps1_3, hostOps1_4, hostOps1_5, hostOps1_6, hostOps1_7, hostOps1_8]

/-- Core `c`'s buffer contents when the region is entered: the launch contents after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.BitsBody.lean ====
/-
  The kernel body at a grid point. The body loads the point's block of node features (ten thousand rows) and the
  four small parameter arrays whole, computes the projected rows and the two attention terms, and stores the three
  side by side as one block of forty columns; nothing else is written. So after the body each input's staging
  buffer holds what it held, and the output's holds the body's one stored value as a function of the five loads.
-/
import proofs.«408319_j53352083751473_3_alg».proof.Proof.BitsBase
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The output block the body leaves, from the five input blocks: the body's one stored value. -/
def outBlk (x0 : Vec F S10000x128 .f32) (x1 : Vec F S32x128 .f32) (x2 : Vec F S32 .f32) (x3 x4 : Vec F S4x32 .f32) :
    Vec F S10000x40 .f32 :=
  k0_pay1 x0 x1 x2 x3 x4

/-- The proof data of the one pipeline on core `c`: the arrays as the region finds them; after the body at point
    `t` each input's buffer at its block and the output's at `outBlk` of the input blocks; the invariant holds the
    scoped rest untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in the output window's buffer. -/
theorem after0_5 (c : Dev nD) (t : Fin cfg0.N) :
    (dats m 0 c).after 5 t = outBlk (iblk m c 0 t) (iblk m c 1 t) (iblk m c 2 t) (iblk m c 3 t) (iblk m c 4 t) := by
  dsimp only [dats]

/-! ### The body on whole staging buffers -/

/-- The zero offsets of a rank-two and of a rank-one rectangle, as constant functions. -/
theorem zeros2 : (![0, 0] : Fin 2 → Nat) = fun _ => 0 := funext fun a => by fin_cases a <;> rfl
theorem zeros1 : (![0] : Fin 1 → Nat) = fun _ => 0 := funext fun a => by fin_cases a; rfl

/-- The rectangle of the body's one store: the whole output block. -/
abbrev rOut : Rect S10000x40 := Rect.unit (s := S10000x40) ![0, 0] S10000x40.size inb_S10000x40_S10000x40_0_0

set_option maxHeartbeats 1000000 in
/-- The body on whole staging buffers, the five inputs' at read contents `x0 … x4` and the output's at anything:
    it runs to a continuation that holds the inputs' as they were and the output's at `outBlk` of the five. -/
theorem sound_kernel (c : Dev nD) (E : Set ℕ) (i : grid0.Coords)
    (arg1 : Memref sig .tc .vmem S10000x128 .f32) (harg1 : arg1.IsWhole)
    (arg2 : Memref sig .tc .vmem S32x128 .f32) (harg2 : arg2.IsWhole)
    (arg3 : Memref sig .tc .vmem S32 .f32) (harg3 : arg3.IsWhole)
    (arg4 : Memref sig .tc .vmem S4x32 .f32) (harg4 : arg4.IsWhole)
    (arg5 : Memref sig .tc .vmem S4x32 .f32) (harg5 : arg5.IsWhole)
    (arg6 : Memref sig .tc .vmem S10000x40 .f32) (harg6 : arg6.IsWhole)
    (x0 : Vec F S10000x128 .f32) (x1 : Vec F S32x128 .f32) (x2 : Vec F S32 .f32) (x3 x4 : Vec F S4x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlk x0 x1 x2 x3 x4)) -∗ K ⟨⟩))
      ⊢ wp frame (wpE (defs₀ (F := F)) Variants.none c none) E
          (cc0__node_kernel i arg1 harg1 arg2 harg2 arg3 harg3 arg4 harg4 arg5 harg5 arg6 harg6) K := by
  simp only [cc0__node_kernel_eq_skeleton]; unfold cc0__node_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _, View.mem_set_unit_zero zeros2 inb_S10000x40_S10000x40_0_0 y⟩),
    View.canon_unit_zero (S := S10000x40) zeros2 inb_S10000x40_S10000x40_0_0]
  unfold outBlk
  simp only [View.readAt_eq_ld]
  rw [View.ld_unit_zero (S := S10000x128) zeros2 inb_S10000x128_S10000x128_0_0,
    View.ld_unit_zero (S := S32x128) zeros2 inb_S32x128_S32x128_0_0,
    View.ld_unit_zero (S := S32) zeros1 inb_S32_S32_0,
    View.ld_unit_zero (S := S4x32) zeros2 inb_S4x32_S4x32_0_0,
    View.ld_unit_zero (S := S4x32) zeros2 inb_S4x32_S4x32_0_0]

/-! ### What the body finds in each input's staging buffer, and what it leaves there -/

/-- Each input's buffer after the body is its block, untouched. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Input window 0's current staging buffer holds its block at every point, fetched there or not: where the
    pipeline did not fetch it the block index has not moved, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by unfold Dat.blockOf; dsimp only [dats]; unfold iblk; rfl) t d).trans
    (by unfold Dat.fetched Dat.blockOf; dsimp only [dats]; unfold iblk; rfl)
/-- Input window 1's current staging buffer holds its block at every point, fetched there or not: where the
    pipeline did not fetch it the block index has not moved, and the body left the block in place. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by unfold Dat.blockOf; dsimp only [dats]; unfold iblk; rfl) t d).trans
    (by unfold Dat.fetched Dat.blockOf; dsimp only [dats]; unfold iblk; rfl)
/-- Input window 2's current staging buffer holds its block at every point, fetched there or not: where the
    pipeline did not fetch it the block index has not moved, and the body left the block in place. -/
theorem before0_2 (c : Dev nD) (t : Fin cfg0.N) (d) : (dats m 0 c).before 2 t d = iblk m c 2 t :=
  ((dats m 0 c).before_in_eq_fetched 2 rfl (fun _ => rfl) (fun _ _ _ => rfl)
      (fun t => by unfold Dat.blockOf; dsimp only [dats]; unfold iblk; rfl) t d).trans
    (by unfold Dat.fetched Dat.blockOf; dsimp only [dats]; unfold iblk; rfl)
/-- Input window 3's current staging buffer holds its block at every point, fetched there or not: where the
    pipeline did not fetch it the block index has not moved, and the body left the block in place. -/
theorem before0_3 (c : Dev nD) (t : Fin cfg0.N) (d) : (dats m 0 c).before 3 t d = iblk m c 3 t :=
  ((dats m 0 c).before_in_eq_fetched 3 rfl (fun _ => rfl) (fun _ _ _ => rfl)
      (fun t => by unfold Dat.blockOf; dsimp only [dats]; unfold iblk; rfl) t d).trans
    (by unfold Dat.fetched Dat.blockOf; dsimp only [dats]; unfold iblk; rfl)
/-- Input window 4's current staging buffer holds its block at every point, fetched there or not: where the
    pipeline did not fetch it the block index has not moved, and the body left the block in place. -/
theorem before0_4 (c : Dev nD) (t : Fin cfg0.N) (d) : (dats m 0 c).before 4 t d = iblk m c 4 t :=
  ((dats m 0 c).before_in_eq_fetched 4 rfl (fun _ => rfl) (fun _ _ _ => rfl)
      (fun t => by unfold Dat.blockOf; dsimp only [dats]; unfold iblk; rfl) t d).trans
    (by unfold Dat.fetched Dat.blockOf; dsimp only [dats]; unfold iblk; rfl)

/-! ### The obligation at a generic point -/

/-- What the body is handed at point `t`: the invariant, what the core owes, and each window's current staging
    buffer at what it then holds, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it hands back: the same invariant and debt, and each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the five inputs' buffers hold their blocks, so the run on whole buffers applies; the
    invariant and the debt are not read and pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body meets the pipeline's obligation at every grid point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsHostFacts.lean ====
/-
  The host lines around the region, as the frame needs them: the program is the lines before the region, the
  region, and the lines after it; the lines after the region touch only buffers that are neither scoped nor
  staged, allocate nothing, and write none of the region's six arrays (each writes its own result buffer); and no
  host line, before or after the region, writes an argument array.
-/
import proofs.«408319_j53352083751473_3_alg».proof.Proof.BitsBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- No host line allocates: each determines the whole of the buffer it writes. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps hostOps0_sub hostOps0_fresh main_chain

/-- The lines after the region touch the region's arrays and the buffers that bypass it only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-! ## Which buffer each host line writes

Every host line writes exactly one buffer. The buffers are numbered in program order: the six arguments come
first (0 to 5), the lines before the region write the next four (6 to 9), the region's result is the eleventh
(10), and every line after the region writes a buffer numbered 11 or later. A buffer numbered below a stretch's
first written buffer is therefore written by no line of the stretch. -/

/-- Every line of `ops` writes exactly one buffer, and that buffer is numbered `n` or later. -/
def WritesFrom (n : ℕ) (ops : List (HloOp τ sig (Elt F))) : Prop :=
  ops.Forall fun op => ∃ y : Ref sig .tc, op.writes = {Proc.devRef (τ := τ) .tc y} ∧ n ≤ y.idx.val

/-- A buffer numbered below `n` is written by no line of a stretch whose lines write from `n` on. -/
theorem WritesFrom.not_mem {n : ℕ} {ops : List (HloOp τ sig (Elt F))} (h : WritesFrom n ops)
    {r : Ref sig .tc} (hr : r.idx.val < n) : ∀ op ∈ ops, Proc.devRef (τ := τ) .tc r ∉ op.writes := by
  intro op hop hmem
  obtain ⟨y, hy, hn⟩ := (List.forall_iff_forall_mem.mp h) op hop
  rw [hy, Finset.mem_singleton] at hmem
  obtain rfl : r = y := Proc.devRef_injective _ hmem
  omega

/-- The four lines before the region write buffers 6 to 9. -/
theorem hostOps0_from : WritesFrom 6 (hostOps0 : List (HloOp τ sig (Elt F))) := by
  simp only [WritesFrom, List.Forall]
  and_intros <;> exact ⟨_, rfl, by decide⟩
theorem hostOps1_from : WritesFrom 11 (hostOps1 : List (HloOp τ sig (Elt F))) := by
  simp only [WritesFrom, List.Forall]
  and_intros <;> exact ⟨_, rfl, by decide⟩
theorem hostOps1_1_from : WritesFrom 11 (hostOps1_1 : List (HloOp τ sig (Elt F))) := by
  simp only [WritesFrom, List.Forall]
  and_intros <;> exact ⟨_, rfl, by decide⟩
theorem hostOps1_2_from : WritesFrom 11 (hostOps1_2 : List (HloOp τ sig (Elt F))) := by
  simp only [WritesFrom, List.Forall]
  and_intros <;> exact ⟨_, rfl, by decide⟩
theorem hostOps1_3_from : WritesFrom 11 (hostOps1_3 : List (HloOp τ sig (Elt F))) := by
  simp only [WritesFrom, List.Forall]
  and_intros <;> exact ⟨_, rfl, by decide⟩
theorem hostOps1_4_from : WritesFrom 11 (hostOps1_4 : List (HloOp τ sig (Elt F))) := by
  simp only [WritesFrom, List.Forall]
  and_intros <;> exact ⟨_, rfl, by decide⟩
theorem hostOps1_5_from : WritesFrom 11 (hostOps1_5 : List (HloOp τ sig (Elt F))) := by
  simp only [WritesFrom, List.Forall]
  and_intros <;> exact ⟨_, rfl, by decide⟩
theorem hostOps1_6_from : WritesFrom 11 (hostOps1_6 : List (HloOp τ sig (Elt F))) := by
  simp only [WritesFrom, List.Forall]
  and_intros <;> exact ⟨_, rfl, by decide⟩
theorem hostOps1_7_from : WritesFrom 11 (hostOps1_7 : List (HloOp τ sig (Elt F))) := by
  simp only [WritesFrom, List.Forall]
  and_intros <;> exact ⟨_, rfl, by decide⟩
theorem hostOps1_8_from : WritesFrom 11 (hostOps1_8 : List (HloOp τ sig (Elt F))) := by
  simp only [WritesFrom, List.Forall]
  and_intros <;> exact ⟨_, rfl, by decide⟩

/-- Every line after the region writes a buffer numbered 11 or later. -/
theorem tail_from : ∀ ops ∈ (tailOps : List (List (HloOp τ sig (Elt F)))), WritesFrom 11 ops := by
  intro ops hops
  simp only [tailOps, List.mem_cons, List.mem_nil_iff, or_false] at hops
  rcases hops with rfl | rfl | rfl | rfl | rfl | rfl | rfl | rfl | rfl
  · exact hostOps1_from
  · exact hostOps1_1_from
  · exact hostOps1_2_from
  · exact hostOps1_3_from
  · exact hostOps1_4_from
  · exact hostOps1_5_from
  · exact hostOps1_6_from
  · exact hostOps1_7_from
  · exact hostOps1_8_from

/-- The region's six arrays are the first five arguments and the region's result: all numbered below 11. -/
theorem arr_early : ∀ w : Fin 6, (Pipeline.arrRef spec0 w).idx.val < 11 := by decide

/-- No line after the region writes a buffer numbered below 11. -/
theorem tail_flatten_not_mem {r : Ref sig .tc} (hr : r.idx.val < 11) :
    ∀ op ∈ (tailOps : List (List (HloOp τ sig (Elt F)))).flatten, Proc.devRef (τ := τ) .tc r ∉ op.writes := by
  intro op hop
  obtain ⟨ops, hops, hop⟩ := List.mem_flatten.mp hop
  exact (tail_from ops hops).not_mem hr op hop

/-- No line before the region writes a buffer numbered below 6. -/
theorem head_flatten_not_mem {r : Ref sig .tc} (hr : r.idx.val < 6) :
    ∀ op ∈ List.flatten [(hostOps0 : List (HloOp τ sig (Elt F)))], Proc.devRef (τ := τ) .tc r ∉ op.writes := by
  intro op hop
  obtain ⟨ops, hops, hop⟩ := List.mem_flatten.mp hop
  rw [List.mem_singleton] at hops
  subst hops
  exact hostOps0_from.not_mem hr op hop

/-- And write no array of the region. -/
theorem tail_keeps : ∀ ops ∈ (tailOps : List (List (HloOp τ sig (Elt F)))), ∀ op ∈ ops,
    ∀ w, Proc.devRef .tc (Pipeline.arrRef spec0 w) ∉ op.writes :=
  fun ops hops op hop w => (tail_from ops hops).not_mem (arr_early w) op hop

/-- No host line before the region writes an argument array: the region finds each as launched. -/
theorem V_main_arg0 (c : Dev nD) : V m c main_arg0 = m ((c : Thread nD τ).loc main_arg0) :=
  StableHlo.after_of_forall_not_mem (b := Proc.devRef .tc main_arg0) _ _ (head_flatten_not_mem (by decide))
theorem V_main_arg1 (c : Dev nD) : V m c main_arg1 = m ((c : Thread nD τ).loc main_arg1) :=
  StableHlo.after_of_forall_not_mem (b := Proc.devRef .tc main_arg1) _ _ (head_flatten_not_mem (by decide))
theorem V_main_arg2 (c : Dev nD) : V m c main_arg2 = m ((c : Thread nD τ).loc main_arg2) :=
  StableHlo.after_of_forall_not_mem (b := Proc.devRef .tc main_arg2) _ _ (head_flatten_not_mem (by decide))
theorem V_main_arg3 (c : Dev nD) : V m c main_arg3 = m ((c : Thread nD τ).loc main_arg3) :=
  StableHlo.after_of_forall_not_mem (b := Proc.devRef .tc main_arg3) _ _ (head_flatten_not_mem (by decide))
theorem V_main_arg4 (c : Dev nD) : V m c main_arg4 = m ((c : Thread nD τ).loc main_arg4) :=
  StableHlo.after_of_forall_not_mem (b := Proc.devRef .tc main_arg4) _ _ (head_flatten_not_mem (by decide))
theorem V_main_arg5 (c : Dev nD) : V m c main_arg5 = m ((c : Thread nD τ).loc main_arg5) :=
  StableHlo.after_of_forall_not_mem (b := Proc.devRef .tc main_arg5) _ _ (head_flatten_not_mem (by decide))

/-- No host line after the region writes an argument array, nor the two rows of the edge list, nor the region's
    result: from any contents `X`, each of them is kept through all the lines. -/
theorem tail_keeps_arg0 (X : Valuation τ sig (Elt F)) : StableHlo.after (tailOps (F := F)).flatten X (Proc.devRef .tc main_arg0) = X (Proc.devRef .tc main_arg0) :=
  StableHlo.after_of_forall_not_mem _ _ (tail_flatten_not_mem (by decide))
theorem tail_keeps_arg1 (X : Valuation τ sig (Elt F)) : StableHlo.after (tailOps (F := F)).flatten X (Proc.devRef .tc main_arg1) = X (Proc.devRef .tc main_arg1) :=
  StableHlo.after_of_forall_not_mem _ _ (tail_flatten_not_mem (by decide))
theorem tail_keeps_arg2 (X : Valuation τ sig (Elt F)) : StableHlo.after (tailOps (F := F)).flatten X (Proc.devRef .tc main_arg2) = X (Proc.devRef .tc main_arg2) :=
  StableHlo.after_of_forall_not_mem _ _ (tail_flatten_not_mem (by decide))
theorem tail_keeps_arg3 (X : Valuation τ sig (Elt F)) : StableHlo.after (tailOps (F := F)).flatten X (Proc.devRef .tc main_arg3) = X (Proc.devRef .tc main_arg3) :=
  StableHlo.after_of_forall_not_mem _ _ (tail_flatten_not_mem (by decide))
theorem tail_keeps_arg4 (X : Valuation τ sig (Elt F)) : StableHlo.after (tailOps (F := F)).flatten X (Proc.devRef .tc main_arg4) = X (Proc.devRef .tc main_arg4) :=
  StableHlo.after_of_forall_not_mem _ _ (tail_flatten_not_mem (by decide))
theorem tail_keeps_arg5 (X : Valuation τ sig (Elt F)) : StableHlo.after (tailOps (F := F)).flatten X (Proc.devRef .tc main_arg5) = X (Proc.devRef .tc main_arg5) :=
  StableHlo.after_of_forall_not_mem _ _ (tail_flatten_not_mem (by decide))

end Cert.Kernel.Hand

end
-- ==== Proof.BitsRun.lean ====
/-
  The run of the kernel program and what its buffers hold at the end: every weakly fair execution
  terminates without a fault; the five staged argument arrays end as launched because the region only reads them,
  the edge list because no host line writes it; and the result buffer ends at what the host lines after the region
  compute from the region's result array.
-/
import proofs.«408319_j53352083751473_3_alg».proof.Proof.BitsBody
import proofs.«408319_j53352083751473_3_alg».proof.Proof.BitsHostFacts

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The buffer contents after the host lines that follow the region. -/
abbrev endV (c : Dev nD) (b : Ref sig .tc) : Buf (Elt F) ((c : Thread nD τ).loc b) :=
  Pipeline.afterTail₀ cfgs (dats m) 0 (V0 m) tailOps c b

set_option backward.isDefEq.respectTransparency.types false in
/-- Every weakly fair execution of @main terminates, every array of the region at what the proof data say and every
    other unscoped buffer as the lines after the region leave it. -/
theorem run_main : θ_run defs (onTc (τ := τ) (main (F := F))) (s₀ m ρ)
    (Pipeline.FramePost cfgs (dats m) 0 (endV m)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The edge list after the lines that follow the region is the launched one. -/
theorem endV_arg5 (c : Dev nD) : endV m c main_arg5 = m ((c : Thread nD τ).loc main_arg5) := by
  unfold endV Pipeline.afterTail₀
  rw [tail_keeps_arg5, Pipeline.withArrays_of_ne _ c (V0 m c) _ main_arg5 (by exact (by decide : ∀ w, Pipeline.arrRef spec0 w ≠ main_arg5))]
  exact V_main_arg5 m c

/-- What the final state holds, read off the run's post: the six argument arrays as launched, and the result buffer
    at the contents the lines after the region leave in it. -/
theorem post_reads (r : PUnit × MemSt nD τ sig (Elt F)) (h : Pipeline.FramePost cfgs (dats m) 0 (endV m) r) (c : Dev nD) :
    r.2.mem ((c.tc : Thread nD τ).loc main_v36) = endV m c main_v36
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨(h c).2 main_v36 (Pipeline.mem_restRefs_of main_v36 (by decide) (by decide)),
   ((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c))),
   ((h c).1 2).trans (((dats m 0 c).arrAt_in 2 rfl _).trans ((A_eq m c 2).trans (V_main_arg2 m c))),
   ((h c).1 3).trans (((dats m 0 c).arrAt_in 3 rfl _).trans ((A_eq m c 3).trans (V_main_arg3 m c))),
   ((h c).1 4).trans (((dats m 0 c).arrAt_in 4 rfl _).trans ((A_eq m c 4).trans (V_main_arg4 m c))),
   ((h c).2 main_arg5 (Pipeline.mem_restRefs_of main_arg5 (by decide) (by decide))).trans (endV_arg5 m c)⟩

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (post_reads m r h c).2) (run_main m ρ)

end Cert.Kernel.Hand

end
-- ==== Proof.IdealBase.lean ====
/-
  The idealized kernel program around its one region: the host lines that follow the region, stretch by
  stretch, and the buffer contents the region finds (the contents after the four host lines that cut the
  edge list into its source row and its destination row).
-/
import proofs.«408319_j53352083751473_3_alg».proof.Proof.Gen.KernelIdeal.Launch
import proofs.«408319_j53352083751473_3_alg».proof.Proof.Gen.KernelIdeal.Skeleton
import proofs.«408319_j53352083751473_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- The host lines after the region: the three column slices of the region's result, the two gathers of the
    attention terms, the leaky rectifier, the shift by the global maximum and the exponential with its
    per-source sums, the gathers of those sums and of the projected rows, and the weighted messages summed
    per destination. -/
abbrev tailOps : List (List (HloOp τ sig (Elt F))) :=
  [hostOps1, hostOps1_1, hostOps1_2, hostOps1_3, hostOps1_4, hostOps1_5, hostOps1_6, hostOps1_7, hostOps1_8]

/-- Core `c`'s buffer contents when the region is entered: the launch contents after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.IdealBody.lean ====
/-
  The kernel body at a grid point. The body loads the point's block of node features (ten thousand rows) and the
  four small parameter arrays whole, computes the projected rows and the two attention terms, and stores the three
  side by side as one block of forty columns; nothing else is written. So after the body each input's staging
  buffer holds what it held, and the output's holds the body's one stored value as a function of the five loads.
-/
import proofs.«408319_j53352083751473_3_alg».proof.Proof.IdealBase
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The output block the body leaves, from the five input blocks: the body's one stored value. -/
def outBlk (x0 : Vec F S10000x128 .f32) (x1 : Vec F S32x128 .f32) (x2 : Vec F S32 .f32) (x3 x4 : Vec F S4x32 .f32) :
    Vec F S10000x40 .f32 :=
  k0_pay1 x0 x1 x2 x3 x4

/-- The proof data of the one pipeline on core `c`: the arrays as the region finds them; after the body at point
    `t` each input's buffer at its block and the output's at `outBlk` of the input blocks; the invariant holds the
    scoped rest untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in the output window's buffer. -/
theorem after0_5 (c : Dev nD) (t : Fin cfg0.N) :
    (dats m 0 c).after 5 t = outBlk (iblk m c 0 t) (iblk m c 1 t) (iblk m c 2 t) (iblk m c 3 t) (iblk m c 4 t) := by
  dsimp only [dats]

/-! ### The body on whole staging buffers -/

/-- The zero offsets of a rank-two and of a rank-one rectangle, as constant functions. -/
theorem zeros2 : (![0, 0] : Fin 2 → Nat) = fun _ => 0 := funext fun a => by fin_cases a <;> rfl
theorem zeros1 : (![0] : Fin 1 → Nat) = fun _ => 0 := funext fun a => by fin_cases a; rfl

/-- The rectangle of the body's one store: the whole output block. -/
abbrev rOut : Rect S10000x40 := Rect.unit (s := S10000x40) ![0, 0] S10000x40.size inb_S10000x40_S10000x40_0_0

set_option maxHeartbeats 1000000 in
/-- The body on whole staging buffers, the five inputs' at read contents `x0 … x4` and the output's at anything:
    it runs to a continuation that holds the inputs' as they were and the output's at `outBlk` of the five. -/
theorem sound_kernel (c : Dev nD) (E : Set ℕ) (i : grid0.Coords)
    (arg1 : Memref sig .tc .vmem S10000x128 .f32) (harg1 : arg1.IsWhole)
    (arg2 : Memref sig .tc .vmem S32x128 .f32) (harg2 : arg2.IsWhole)
    (arg3 : Memref sig .tc .vmem S32 .f32) (harg3 : arg3.IsWhole)
    (arg4 : Memref sig .tc .vmem S4x32 .f32) (harg4 : arg4.IsWhole)
    (arg5 : Memref sig .tc .vmem S4x32 .f32) (harg5 : arg5.IsWhole)
    (arg6 : Memref sig .tc .vmem S10000x40 .f32) (harg6 : arg6.IsWhole)
    (x0 : Vec F S10000x128 .f32) (x1 : Vec F S32x128 .f32) (x2 : Vec F S32 .f32) (x3 x4 : Vec F S4x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlk x0 x1 x2 x3 x4)) -∗ K ⟨⟩))
      ⊢ wp frame (wpE (defs₀ (F := F)) Variants.none c none) E
          (cc0__node_kernel i arg1 harg1 arg2 harg2 arg3 harg3 arg4 harg4 arg5 harg5 arg6 harg6) K := by
  simp only [cc0__node_kernel_eq_skeleton]; unfold cc0__node_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _, View.mem_set_unit_zero zeros2 inb_S10000x40_S10000x40_0_0 y⟩),
    View.canon_unit_zero (S := S10000x40) zeros2 inb_S10000x40_S10000x40_0_0]
  unfold outBlk
  simp only [View.readAt_eq_ld]
  rw [View.ld_unit_zero (S := S10000x128) zeros2 inb_S10000x128_S10000x128_0_0,
    View.ld_unit_zero (S := S32x128) zeros2 inb_S32x128_S32x128_0_0,
    View.ld_unit_zero (S := S32) zeros1 inb_S32_S32_0,
    View.ld_unit_zero (S := S4x32) zeros2 inb_S4x32_S4x32_0_0,
    View.ld_unit_zero (S := S4x32) zeros2 inb_S4x32_S4x32_0_0]

/-! ### What the body finds in each input's staging buffer, and what it leaves there -/

/-- Each input's buffer after the body is its block, untouched. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Input window 0's current staging buffer holds its block at every point, fetched there or not: where the
    pipeline did not fetch it the block index has not moved, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by unfold Dat.blockOf; dsimp only [dats]; unfold iblk; rfl) t d).trans
    (by unfold Dat.fetched Dat.blockOf; dsimp only [dats]; unfold iblk; rfl)
/-- Input window 1's current staging buffer holds its block at every point, fetched there or not: where the
    pipeline did not fetch it the block index has not moved, and the body left the block in place. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by unfold Dat.blockOf; dsimp only [dats]; unfold iblk; rfl) t d).trans
    (by unfold Dat.fetched Dat.blockOf; dsimp only [dats]; unfold iblk; rfl)
/-- Input window 2's current staging buffer holds its block at every point, fetched there or not: where the
    pipeline did not fetch it the block index has not moved, and the body left the block in place. -/
theorem before0_2 (c : Dev nD) (t : Fin cfg0.N) (d) : (dats m 0 c).before 2 t d = iblk m c 2 t :=
  ((dats m 0 c).before_in_eq_fetched 2 rfl (fun _ => rfl) (fun _ _ _ => rfl)
      (fun t => by unfold Dat.blockOf; dsimp only [dats]; unfold iblk; rfl) t d).trans
    (by unfold Dat.fetched Dat.blockOf; dsimp only [dats]; unfold iblk; rfl)
/-- Input window 3's current staging buffer holds its block at every point, fetched there or not: where the
    pipeline did not fetch it the block index has not moved, and the body left the block in place. -/
theorem before0_3 (c : Dev nD) (t : Fin cfg0.N) (d) : (dats m 0 c).before 3 t d = iblk m c 3 t :=
  ((dats m 0 c).before_in_eq_fetched 3 rfl (fun _ => rfl) (fun _ _ _ => rfl)
      (fun t => by unfold Dat.blockOf; dsimp only [dats]; unfold iblk; rfl) t d).trans
    (by unfold Dat.fetched Dat.blockOf; dsimp only [dats]; unfold iblk; rfl)
/-- Input window 4's current staging buffer holds its block at every point, fetched there or not: where the
    pipeline did not fetch it the block index has not moved, and the body left the block in place. -/
theorem before0_4 (c : Dev nD) (t : Fin cfg0.N) (d) : (dats m 0 c).before 4 t d = iblk m c 4 t :=
  ((dats m 0 c).before_in_eq_fetched 4 rfl (fun _ => rfl) (fun _ _ _ => rfl)
      (fun t => by unfold Dat.blockOf; dsimp only [dats]; unfold iblk; rfl) t d).trans
    (by unfold Dat.fetched Dat.blockOf; dsimp only [dats]; unfold iblk; rfl)

/-! ### The obligation at a generic point -/

/-- What the body is handed at point `t`: the invariant, what the core owes, and each window's current staging
    buffer at what it then holds, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it hands back: the same invariant and debt, and each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the five inputs' buffers hold their blocks, so the run on whole buffers applies; the
    invariant and the debt are not read and pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body meets the pipeline's obligation at every grid point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealHostFacts.lean ====
/-
  The host lines around the region, as the frame needs them: the program is the lines before the region, the
  region, and the lines after it; the lines after the region touch only buffers that are neither scoped nor
  staged, allocate nothing, and write none of the region's six arrays (each writes its own result buffer); and no
  host line, before or after the region, writes an argument array.
-/
import proofs.«408319_j53352083751473_3_alg».proof.Proof.IdealBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- No host line allocates: each determines the whole of the buffer it writes. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps hostOps0_sub hostOps0_fresh main_chain

/-- The lines after the region touch the region's arrays and the buffers that bypass it only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-! ## Which buffer each host line writes

Every host line writes exactly one buffer. The buffers are numbered in program order: the six arguments come
first (0 to 5), the lines before the region write the next four (6 to 9), the region's result is the eleventh
(10), and every line after the region writes a buffer numbered 11 or later. A buffer numbered below a stretch's
first written buffer is therefore written by no line of the stretch. -/

/-- Every line of `ops` writes exactly one buffer, and that buffer is numbered `n` or later. -/
def WritesFrom (n : ℕ) (ops : List (HloOp τ sig (Elt F))) : Prop :=
  ops.Forall fun op => ∃ y : Ref sig .tc, op.writes = {Proc.devRef (τ := τ) .tc y} ∧ n ≤ y.idx.val

/-- A buffer numbered below `n` is written by no line of a stretch whose lines write from `n` on. -/
theorem WritesFrom.not_mem {n : ℕ} {ops : List (HloOp τ sig (Elt F))} (h : WritesFrom n ops)
    {r : Ref sig .tc} (hr : r.idx.val < n) : ∀ op ∈ ops, Proc.devRef (τ := τ) .tc r ∉ op.writes := by
  intro op hop hmem
  obtain ⟨y, hy, hn⟩ := (List.forall_iff_forall_mem.mp h) op hop
  rw [hy, Finset.mem_singleton] at hmem
  obtain rfl : r = y := Proc.devRef_injective _ hmem
  omega

/-- The four lines before the region write buffers 6 to 9. -/
theorem hostOps0_from : WritesFrom 6 (hostOps0 : List (HloOp τ sig (Elt F))) := by
  simp only [WritesFrom, List.Forall]
  and_intros <;> exact ⟨_, rfl, by decide⟩
theorem hostOps1_from : WritesFrom 11 (hostOps1 : List (HloOp τ sig (Elt F))) := by
  simp only [WritesFrom, List.Forall]
  and_intros <;> exact ⟨_, rfl, by decide⟩
theorem hostOps1_1_from : WritesFrom 11 (hostOps1_1 : List (HloOp τ sig (Elt F))) := by
  simp only [WritesFrom, List.Forall]
  and_intros <;> exact ⟨_, rfl, by decide⟩
theorem hostOps1_2_from : WritesFrom 11 (hostOps1_2 : List (HloOp τ sig (Elt F))) := by
  simp only [WritesFrom, List.Forall]
  and_intros <;> exact ⟨_, rfl, by decide⟩
theorem hostOps1_3_from : WritesFrom 11 (hostOps1_3 : List (HloOp τ sig (Elt F))) := by
  simp only [WritesFrom, List.Forall]
  and_intros <;> exact ⟨_, rfl, by decide⟩
theorem hostOps1_4_from : WritesFrom 11 (hostOps1_4 : List (HloOp τ sig (Elt F))) := by
  simp only [WritesFrom, List.Forall]
  and_intros <;> exact ⟨_, rfl, by decide⟩
theorem hostOps1_5_from : WritesFrom 11 (hostOps1_5 : List (HloOp τ sig (Elt F))) := by
  simp only [WritesFrom, List.Forall]
  and_intros <;> exact ⟨_, rfl, by decide⟩
theorem hostOps1_6_from : WritesFrom 11 (hostOps1_6 : List (HloOp τ sig (Elt F))) := by
  simp only [WritesFrom, List.Forall]
  and_intros <;> exact ⟨_, rfl, by decide⟩
theorem hostOps1_7_from : WritesFrom 11 (hostOps1_7 : List (HloOp τ sig (Elt F))) := by
  simp only [WritesFrom, List.Forall]
  and_intros <;> exact ⟨_, rfl, by decide⟩
theorem hostOps1_8_from : WritesFrom 11 (hostOps1_8 : List (HloOp τ sig (Elt F))) := by
  simp only [WritesFrom, List.Forall]
  and_intros <;> exact ⟨_, rfl, by decide⟩

/-- Every line after the region writes a buffer numbered 11 or later. -/
theorem tail_from : ∀ ops ∈ (tailOps : List (List (HloOp τ sig (Elt F)))), WritesFrom 11 ops := by
  intro ops hops
  simp only [tailOps, List.mem_cons, List.mem_nil_iff, or_false] at hops
  rcases hops with rfl | rfl | rfl | rfl | rfl | rfl | rfl | rfl | rfl
  · exact hostOps1_from
  · exact hostOps1_1_from
  · exact hostOps1_2_from
  · exact hostOps1_3_from
  · exact hostOps1_4_from
  · exact hostOps1_5_from
  · exact hostOps1_6_from
  · exact hostOps1_7_from
  · exact hostOps1_8_from

/-- The region's six arrays are the first five arguments and the region's result: all numbered below 11. -/
theorem arr_early : ∀ w : Fin 6, (Pipeline.arrRef spec0 w).idx.val < 11 := by decide

/-- No line after the region writes a buffer numbered below 11. -/
theorem tail_flatten_not_mem {r : Ref sig .tc} (hr : r.idx.val < 11) :
    ∀ op ∈ (tailOps : List (List (HloOp τ sig (Elt F)))).flatten, Proc.devRef (τ := τ) .tc r ∉ op.writes := by
  intro op hop
  obtain ⟨ops, hops, hop⟩ := List.mem_flatten.mp hop
  exact (tail_from ops hops).not_mem hr op hop

/-- No line before the region writes a buffer numbered below 6. -/
theorem head_flatten_not_mem {r : Ref sig .tc} (hr : r.idx.val < 6) :
    ∀ op ∈ List.flatten [(hostOps0 : List (HloOp τ sig (Elt F)))], Proc.devRef (τ := τ) .tc r ∉ op.writes := by
  intro op hop
  obtain ⟨ops, hops, hop⟩ := List.mem_flatten.mp hop
  rw [List.mem_singleton] at hops
  subst hops
  exact hostOps0_from.not_mem hr op hop

/-- And write no array of the region. -/
theorem tail_keeps : ∀ ops ∈ (tailOps : List (List (HloOp τ sig (Elt F)))), ∀ op ∈ ops,
    ∀ w, Proc.devRef .tc (Pipeline.arrRef spec0 w) ∉ op.writes :=
  fun ops hops op hop w => (tail_from ops hops).not_mem (arr_early w) op hop

/-- No host line before the region writes an argument array: the region finds each as launched. -/
theorem V_main_arg0 (c : Dev nD) : V m c main_arg0 = m ((c : Thread nD τ).loc main_arg0) :=
  StableHlo.after_of_forall_not_mem (b := Proc.devRef .tc main_arg0) _ _ (head_flatten_not_mem (by decide))
theorem V_main_arg1 (c : Dev nD) : V m c main_arg1 = m ((c : Thread nD τ).loc main_arg1) :=
  StableHlo.after_of_forall_not_mem (b := Proc.devRef .tc main_arg1) _ _ (head_flatten_not_mem (by decide))
theorem V_main_arg2 (c : Dev nD) : V m c main_arg2 = m ((c : Thread nD τ).loc main_arg2) :=
  StableHlo.after_of_forall_not_mem (b := Proc.devRef .tc main_arg2) _ _ (head_flatten_not_mem (by decide))
theorem V_main_arg3 (c : Dev nD) : V m c main_arg3 = m ((c : Thread nD τ).loc main_arg3) :=
  StableHlo.after_of_forall_not_mem (b := Proc.devRef .tc main_arg3) _ _ (head_flatten_not_mem (by decide))
theorem V_main_arg4 (c : Dev nD) : V m c main_arg4 = m ((c : Thread nD τ).loc main_arg4) :=
  StableHlo.after_of_forall_not_mem (b := Proc.devRef .tc main_arg4) _ _ (head_flatten_not_mem (by decide))
theorem V_main_arg5 (c : Dev nD) : V m c main_arg5 = m ((c : Thread nD τ).loc main_arg5) :=
  StableHlo.after_of_forall_not_mem (b := Proc.devRef .tc main_arg5) _ _ (head_flatten_not_mem (by decide))

/-- No host line after the region writes an argument array, nor the two rows of the edge list, nor the region's
    result: from any contents `X`, each of them is kept through all the lines. -/
theorem tail_keeps_arg0 (X : Valuation τ sig (Elt F)) : StableHlo.after (tailOps (F := F)).flatten X (Proc.devRef .tc main_arg0) = X (Proc.devRef .tc main_arg0) :=
  StableHlo.after_of_forall_not_mem _ _ (tail_flatten_not_mem (by decide))
theorem tail_keeps_arg1 (X : Valuation τ sig (Elt F)) : StableHlo.after (tailOps (F := F)).flatten X (Proc.devRef .tc main_arg1) = X (Proc.devRef .tc main_arg1) :=
  StableHlo.after_of_forall_not_mem _ _ (tail_flatten_not_mem (by decide))
theorem tail_keeps_arg2 (X : Valuation τ sig (Elt F)) : StableHlo.after (tailOps (F := F)).flatten X (Proc.devRef .tc main_arg2) = X (Proc.devRef .tc main_arg2) :=
  StableHlo.after_of_forall_not_mem _ _ (tail_flatten_not_mem (by decide))
theorem tail_keeps_arg3 (X : Valuation τ sig (Elt F)) : StableHlo.after (tailOps (F := F)).flatten X (Proc.devRef .tc main_arg3) = X (Proc.devRef .tc main_arg3) :=
  StableHlo.after_of_forall_not_mem _ _ (tail_flatten_not_mem (by decide))
theorem tail_keeps_arg4 (X : Valuation τ sig (Elt F)) : StableHlo.after (tailOps (F := F)).flatten X (Proc.devRef .tc main_arg4) = X (Proc.devRef .tc main_arg4) :=
  StableHlo.after_of_forall_not_mem _ _ (tail_flatten_not_mem (by decide))
theorem tail_keeps_arg5 (X : Valuation τ sig (Elt F)) : StableHlo.after (tailOps (F := F)).flatten X (Proc.devRef .tc main_arg5) = X (Proc.devRef .tc main_arg5) :=
  StableHlo.after_of_forall_not_mem _ _ (tail_flatten_not_mem (by decide))

end Cert.KernelIdeal.Hand

end
-- ==== Proof.IdealRun.lean ====
/-
  The run of the idealized kernel program and what its buffers hold at the end: every weakly fair execution
  terminates without a fault; the five staged argument arrays end as launched because the region only reads them,
  the edge list because no host line writes it; and the result buffer ends at what the host lines after the region
  compute from the region's result array.
-/
import proofs.«408319_j53352083751473_3_alg».proof.Proof.IdealBody
import proofs.«408319_j53352083751473_3_alg».proof.Proof.IdealHostFacts

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The buffer contents after the host lines that follow the region. -/
abbrev endV (c : Dev nD) (b : Ref sig .tc) : Buf (Elt F) ((c : Thread nD τ).loc b) :=
  Pipeline.afterTail₀ cfgs (dats m) 0 (V0 m) tailOps c b

set_option backward.isDefEq.respectTransparency.types false in
/-- Every weakly fair execution of @main terminates, every array of the region at what the proof data say and every
    other unscoped buffer as the lines after the region leave it. -/
theorem run_main : θ_run defs (onTc (τ := τ) (main (F := F))) (s₀ m ρ)
    (Pipeline.FramePost cfgs (dats m) 0 (endV m)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The edge list after the lines that follow the region is the launched one. -/
theorem endV_arg5 (c : Dev nD) : endV m c main_arg5 = m ((c : Thread nD τ).loc main_arg5) := by
  unfold endV Pipeline.afterTail₀
  rw [tail_keeps_arg5, Pipeline.withArrays_of_ne _ c (V0 m c) _ main_arg5 (by exact (by decide : ∀ w, Pipeline.arrRef spec0 w ≠ main_arg5))]
  exact V_main_arg5 m c

/-- What the final state holds, read off the run's post: the six argument arrays as launched, and the result buffer
    at the contents the lines after the region leave in it. -/
theorem post_reads (r : PUnit × MemSt nD τ sig (Elt F)) (h : Pipeline.FramePost cfgs (dats m) 0 (endV m) r) (c : Dev nD) :
    r.2.mem ((c.tc : Thread nD τ).loc main_v36) = endV m c main_v36
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨(h c).2 main_v36 (Pipeline.mem_restRefs_of main_v36 (by decide) (by decide)),
   ((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c))),
   ((h c).1 2).trans (((dats m 0 c).arrAt_in 2 rfl _).trans ((A_eq m c 2).trans (V_main_arg2 m c))),
   ((h c).1 3).trans (((dats m 0 c).arrAt_in 3 rfl _).trans ((A_eq m c 3).trans (V_main_arg3 m c))),
   ((h c).1 4).trans (((dats m 0 c).arrAt_in 4 rfl _).trans ((A_eq m c 4).trans (V_main_arg4 m c))),
   ((h c).2 main_arg5 (Pipeline.mem_restRefs_of main_arg5 (by decide) (by decide))).trans (endV_arg5 m c)⟩

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (post_reads m r h c).2) (run_main m ρ)

end Cert.KernelIdeal.Hand

end
-- ==== Proof.LibHostStretch.lean ====
/-
  Running a list of host operations in stretches.

  The contents after a list of operations is a fold over the list, so the contents after a concatenation are the
  second part's after the first part's; in particular the contents after the first n + k operations are the contents
  after the k operations that follow the first n, started from the contents after the first n. A buffer that no
  operation of a list writes keeps its contents through every prefix of the list.

  An operation of a module-local function reads and writes its buffers through a transport along the buffer's type;
  writing a value through it and reading it back gives the value.
-/
import Idealize.ShloMosaic.Lib.StableHlo.Run

noncomputable section

namespace Cert.GraphConv

open Idealize.ShloMosaic Idealize.ShloMosaic.StableHlo

variable {τ : Topo} {sig : RefSig} {Val : EltTy → Type}

/-- The contents after one list of operations and then another are the second's after the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The first n + k operations are the first n, then the k that follow them. -/
theorem after_take_add (l : List (HloOp τ sig Val)) (n k : Nat) (V : Valuation τ sig Val) :
    after (List.take (n + k) l) V = after (List.take k (List.drop n l)) (after (List.take n l) V) := by
  rw [List.take_add, after_append]

/-- The whole list is its first n operations, then the rest. -/
theorem after_take_drop (l : List (HloOp τ sig Val)) (n : Nat) (V : Valuation τ sig Val) :
    after l V = after (List.drop n l) (after (List.take n l) V) := by
  conv_lhs => rw [← List.take_append_drop n l]
  exact after_append _ _ _

/-- A buffer no operation of the list writes keeps its contents through every prefix of the list. -/
theorem prefix_keeps {b : DevRef τ sig} (l : List (HloOp τ sig Val)) (h : ∀ op ∈ l, b ∉ op.writes) (n : Nat)
    (V : Valuation τ sig Val) : after (List.take n l) V b = V b :=
  after_of_forall_not_mem _ _ fun op ho => h op (List.mem_of_mem_take ho)

/-- A value written to a typed reference's buffer and read back is the value. -/
theorem ofBuf_toBuf {T : BufTy} (x : TRef sig T) (v : T.Contents Val) : x.ofBuf (x.toBuf v) = v := by
  obtain ⟨r, rfl, h2, h3⟩ := x
  rfl

end Cert.GraphConv

end
-- ==== Proof.TailK.lean ====
/-
  The idealized kernel program's host lines after the region, as functions of what they read: the projected
  rows, the two attention terms, and the source and destination rows of the edge list.

  A row gather `take` is printed as: negative indices wrapped by the table's height, the gather, and a mask that
  is true where the wrapped index lies inside the table; rows whose index lies outside are filled with a fixed
  pattern.
-/
import proofs.«408319_j53352083751473_3_alg».proof.Proof.Gen.KernelIdeal

noncomputable section

namespace Cert.KernelIdeal.Tail

open Cert.KernelIdeal Cert.KernelIdeal.Facts₀
open Idealize.ShloMosaic

variable {F : FTy → Type} [FloatOps F]

/-- The source row of the edge list. -/
def srcRow (e : IVec S2x1600000 32) : IVec S1600000 32 :=
  shapeCast S1600000 (extractStridedSlice S1x1600000 ![0, 0] e slices_S2x1600000_S1x1600000_0_0) shapeCasts_S1x1600000_S1600000

/-- The destination row of the edge list. -/
def dstRow (e : IVec S2x1600000 32) : IVec S1600000 32 :=
  shapeCast S1600000 (extractStridedSlice S1x1600000 ![1, 0] e slices_S2x1600000_S1x1600000_1_0) shapeCasts_S1x1600000_S1600000

/-- Every entry of an index row names a row of the table of one hundred thousand rows. -/
def InTable (i : IVec S1600000 32) : Prop := ∀ j : S1600000.Idx, 0 ≤ (i j).toInt ∧ (i j).toInt < 100000

/-- The index column a gather reads: each index below zero moved up by the table's height. -/
def wrapIdx (i : IVec S1600000 32) : IVec S1600000x1 32 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

/-- Per edge: does the wrapped index lie inside the table, `0 ≤ · ≤ 99999`? -/
def inTable (j : IVec S1600000x1 32) : IVec S1600000 1 :=
  Host.reduce IntOp.andi
    (andi (cmpi .sge j (broadcastInDim S1600000x1 ![] bcast_S_S1600000x1 (constantI S_ 32 0#32)))
      (cmpi .sle j (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The masked row gather of a table of four columns. -/
def take4 (x : FVec F S100000x4 .f32) (i : IVec S1600000 32) : FVec F S1600000x4 .f32 :=
  select (broadcastInDim S1600000x4 ![0] bcast_S1600000_S1600000x4_0 (inTable (wrapIdx i)))
    (Host.gather gather_S100000x4_S1600000x1_S1600000x4_1_0_n_n_0_1_14 x (wrapIdx i))
    (broadcastInDim S1600000x4 ![] bcast_S_S1600000x4 (constant S_ .f32 0x7FC00000#32))

/-- The masked row gather of a table of thirty-two columns. -/
def take32 (x : FVec F S100000x32 .f32) (i : IVec S1600000 32) : FVec F S1600000x32 .f32 :=
  select (broadcastInDim S1600000x32 ![0] bcast_S1600000_S1600000x32_0 (inTable (wrapIdx i)))
    (Host.gather gather_S100000x32_S1600000x1_S1600000x32_1_0_n_n_0_1_132 x (wrapIdx i))
    (broadcastInDim S1600000x32 ![] bcast_S_S1600000x32 (constant S_ .f32 0x7FC00000#32))

/-- The attention logits after the leaky rectifier, given the two gathered terms. -/
def leaky (gs gd : FVec F S1600000x4 .f32) : FVec F S1600000x4 .f32 :=
  select (cmpf .ogt (addf gs gd) (broadcastInDim S1600000x4 ![] bcast_S_S1600000x4 (constant S_ .f32 0x00000000#32)))
    (addf gs gd)
    (mulf (broadcastInDim S1600000x4 ![] bcast_S_S1600000x4 (constant S_ .f32 0x3E4CCCCD#32)) (addf gs gd))

/-- The exponential of the logits shifted by their maximum over all edges and heads. -/
def expShift (e : FVec F S1600000x4 .f32) : FVec F S1600000x4 .f32 :=
  Host.exp (subf e (broadcastInDim S1600000x4 ![] bcast_S_S1600000x4
    (Host.reduce FloatOps.maximumf e (constant S_ .f32 0xFF800000#32) reducesTo_S1600000x4_S_d0_1 h_S_)))

/-- The exponentials summed per source node. -/
def denom (p : FVec F S1600000x4 .f32) (src : IVec S1600000 32) : FVec F S100000x4 .f32 :=
  Host.scatterAdd scatter_S100000x4_S1600000x1_S1600000x4_1_0_0_1
    (broadcastInDim S100000x4 ![] bcast_S_S100000x4 (constant S_ .f32 0x00000000#32))
    (broadcastInDim S1600000x1 ![0] bcast_S1600000_S1600000x1_0 src) p

/-- The attention weights: each exponential over its source's sum plus the small constant. -/
def weights (p dg : FVec F S1600000x4 .f32) : FVec F S1600000x4 .f32 :=
  Host.divf p (addf dg (broadcastInDim S1600000x4 ![] bcast_S_S1600000x4 (constant S_ .f32 0x24E69595#32)))

/-- The messages: per edge and head, the gathered projected row times the head's weight. -/
def messages (wg : FVec F S1600000x32 .f32) (a : FVec F S1600000x4 .f32) : FVec F S1600000x4x32 .f32 :=
  mulf (broadcastInDim S1600000x4x32 ![0, 1, 2] bcast_S1600000x1x32_S1600000x4x32_0_1_2
      (broadcastInDim S1600000x1x32 ![0, 2] bcast_S1600000x32_S1600000x1x32_0_2 wg))
    (broadcastInDim S1600000x4x32 ![0, 1, 2] bcast_S1600000x4x1_S1600000x4x32_0_1_2
      (broadcastInDim S1600000x4x1 ![0, 1] bcast_S1600000x4_S1600000x4x1_0_1 a))

/-- The messages, laid out one row per edge, summed per destination node. -/
def aggregate (msg : FVec F S1600000x4x32 .f32) (dst : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (shapeCast S1600000x128 msg shapeCasts_S1600000x4x32_S1600000x128)

/-- The whole tail: the result array as a function of the projected rows, the two attention terms and the two
    rows of the edge list. -/
def tailK (wh : FVec F S100000x32 .f32) (asrc adst : FVec F S100000x4 .f32) (src dst : IVec S1600000 32) :
    FVec F S100000x128 .f32 :=
  let p := expShift (leaky (take4 asrc src) (take4 adst dst))
  aggregate (messages (take32 wh src) (weights p (take4 (denom p src) src))) dst

end Cert.KernelIdeal.Tail

end
-- ==== Proof.IdealTail.lean ====
/-
  The result buffer after the host lines that follow the region, from any contents `X` of the buffers before them:
  the lines compose to the tail function of the three column ranges of the region's result array and of the two
  rows of the edge list (which the lines before the region left in their own buffers).
-/
import proofs.«408319_j53352083751473_3_alg».proof.Proof.IdealHostFacts
import proofs.«408319_j53352083751473_3_alg».proof.Proof.LibHostStretch
import proofs.«408319_j53352083751473_3_alg».proof.Proof.TailK
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

open Cert.GraphConv (ofBuf_toBuf)

/-! ## Which buffers each stretch writes

The signature numbers the buffers in program order, so each stretch of host lines writes a run of consecutive
numbers; a buffer numbered below a stretch's first is kept by the stretch. -/

theorem hostOps1_1_lo : WritesFrom 14 (hostOps1_1 : List (HloOp τ sig (Elt F))) := by
  simp only [WritesFrom, List.Forall]
  and_intros <;> exact ⟨_, rfl, by decide⟩
theorem hostOps1_2_lo : WritesFrom 37 (hostOps1_2 : List (HloOp τ sig (Elt F))) := by
  simp only [WritesFrom, List.Forall]
  and_intros <;> exact ⟨_, rfl, by decide⟩
theorem hostOps1_3_lo : WritesFrom 60 (hostOps1_3 : List (HloOp τ sig (Elt F))) := by
  simp only [WritesFrom, List.Forall]
  and_intros <;> exact ⟨_, rfl, by decide⟩
theorem hostOps1_4_lo : WritesFrom 67 (hostOps1_4 : List (HloOp τ sig (Elt F))) := by
  simp only [WritesFrom, List.Forall]
  and_intros <;> exact ⟨_, rfl, by decide⟩
theorem hostOps1_5_lo : WritesFrom 68 (hostOps1_5 : List (HloOp τ sig (Elt F))) := by
  simp only [WritesFrom, List.Forall]
  and_intros <;> exact ⟨_, rfl, by decide⟩
theorem hostOps1_6_lo : WritesFrom 77 (hostOps1_6 : List (HloOp τ sig (Elt F))) := by
  simp only [WritesFrom, List.Forall]
  and_intros <;> exact ⟨_, rfl, by decide⟩
theorem hostOps1_7_lo : WritesFrom 100 (hostOps1_7 : List (HloOp τ sig (Elt F))) := by
  simp only [WritesFrom, List.Forall]
  and_intros <;> exact ⟨_, rfl, by decide⟩
theorem hostOps1_8_lo : WritesFrom 123 (hostOps1_8 : List (HloOp τ sig (Elt F))) := by
  simp only [WritesFrom, List.Forall]
  and_intros <;> exact ⟨_, rfl, by decide⟩

/-- A buffer numbered below the first one a stretch writes keeps its contents through the stretch. -/
theorem keep {n : ℕ} {ops : List (HloOp τ sig (Elt F))} (h : WritesFrom n ops) {r : Ref sig .tc} (hr : r.idx.val < n)
    (Y : Valuation τ sig (Elt F)) : StableHlo.after ops Y (Proc.devRef .tc r) = Y (Proc.devRef .tc r) :=
  StableHlo.after_of_forall_not_mem _ _ (h.not_mem hr)

/-! ## Reading and writing through a typed reference

A host line of a module-local function reads and writes its buffers through a transport along the buffer's type;
at each of the buffers below the type is the value's own, so the transport is the identity. -/

theorem rd_main_v1 (Y : Valuation τ sig (Elt F)) (h1 : main_v1.ty = (⟨S1600000, .i32⟩ : BufTy)) (h2 : main_v1.space ≠ .host) (h3 : main_v1.isScoped = false) :
    (TRef.of (T := ⟨S1600000, .i32⟩) main_v1 h1 h2 h3).ofBuf (Y (Proc.devRef .tc main_v1)) = Y (Proc.devRef .tc main_v1) := cast_eq _ _
theorem rd_main_v3 (Y : Valuation τ sig (Elt F)) (h1 : main_v3.ty = (⟨S1600000, .i32⟩ : BufTy)) (h2 : main_v3.space ≠ .host) (h3 : main_v3.isScoped = false) :
    (TRef.of (T := ⟨S1600000, .i32⟩) main_v3 h1 h2 h3).ofBuf (Y (Proc.devRef .tc main_v3)) = Y (Proc.devRef .tc main_v3) := cast_eq _ _
theorem rd_main_v6 (Y : Valuation τ sig (Elt F)) (h1 : main_v6.ty = (⟨S100000x4, .f32⟩ : BufTy)) (h2 : main_v6.space ≠ .host) (h3 : main_v6.isScoped = false) :
    (TRef.of (T := ⟨S100000x4, .f32⟩) main_v6 h1 h2 h3).ofBuf (Y (Proc.devRef .tc main_v6)) = Y (Proc.devRef .tc main_v6) := cast_eq _ _
theorem rd_main_v7 (Y : Valuation τ sig (Elt F)) (h1 : main_v7.ty = (⟨S100000x4, .f32⟩ : BufTy)) (h2 : main_v7.space ≠ .host) (h3 : main_v7.isScoped = false) :
    (TRef.of (T := ⟨S100000x4, .f32⟩) main_v7 h1 h2 h3).ofBuf (Y (Proc.devRef .tc main_v7)) = Y (Proc.devRef .tc main_v7) := cast_eq _ _
theorem rd_main_v22 (Y : Valuation τ sig (Elt F)) (h1 : main_v22.ty = (⟨S100000x4, .f32⟩ : BufTy)) (h2 : main_v22.space ≠ .host) (h3 : main_v22.isScoped = false) :
    (TRef.of (T := ⟨S100000x4, .f32⟩) main_v22 h1 h2 h3).ofBuf (Y (Proc.devRef .tc main_v22)) = Y (Proc.devRef .tc main_v22) := cast_eq _ _
theorem rd_main_v5 (Y : Valuation τ sig (Elt F)) (h1 : main_v5.ty = (⟨S100000x32, .f32⟩ : BufTy)) (h2 : main_v5.space ≠ .host) (h3 : main_v5.isScoped = false) :
    (TRef.of (T := ⟨S100000x32, .f32⟩) main_v5 h1 h2 h3).ofBuf (Y (Proc.devRef .tc main_v5)) = Y (Proc.devRef .tc main_v5) := cast_eq _ _
theorem rd_main_v12 (Y : Valuation τ sig (Elt F)) (h1 : main_v12.ty = (⟨S1600000x4, .i1⟩ : BufTy)) (h2 : main_v12.space ≠ .host) (h3 : main_v12.isScoped = false) :
    (TRef.of (T := ⟨S1600000x4, .i1⟩) main_v12 h1 h2 h3).ofBuf (Y (Proc.devRef .tc main_v12)) = Y (Proc.devRef .tc main_v12) := cast_eq _ _
theorem rd_main_v10 (Y : Valuation τ sig (Elt F)) (h1 : main_v10.ty = (⟨S1600000x4, .f32⟩ : BufTy)) (h2 : main_v10.space ≠ .host) (h3 : main_v10.isScoped = false) :
    (TRef.of (T := ⟨S1600000x4, .f32⟩) main_v10 h1 h2 h3).ofBuf (Y (Proc.devRef .tc main_v10)) = Y (Proc.devRef .tc main_v10) := cast_eq _ _
theorem rd_main_v14 (Y : Valuation τ sig (Elt F)) (h1 : main_v14.ty = (⟨S1600000x4, .f32⟩ : BufTy)) (h2 : main_v14.space ≠ .host) (h3 : main_v14.isScoped = false) :
    (TRef.of (T := ⟨S1600000x4, .f32⟩) main_v14 h1 h2 h3).ofBuf (Y (Proc.devRef .tc main_v14)) = Y (Proc.devRef .tc main_v14) := cast_eq _ _
theorem wr_main_v8 (v : (⟨S1600000x4, .f32⟩ : BufTy).Contents (Elt F)) (h1 : main_v8.ty = (⟨S1600000x4, .f32⟩ : BufTy)) (h2 : main_v8.space ≠ .host) (h3 : main_v8.isScoped = false) :
    (TRef.of (T := ⟨S1600000x4, .f32⟩) main_v8 h1 h2 h3).toBuf (Val := Elt F) v = v := cast_eq _ _
theorem wr_main_v9 (v : (⟨S1600000x4, .f32⟩ : BufTy).Contents (Elt F)) (h1 : main_v9.ty = (⟨S1600000x4, .f32⟩ : BufTy)) (h2 : main_v9.space ≠ .host) (h3 : main_v9.isScoped = false) :
    (TRef.of (T := ⟨S1600000x4, .f32⟩) main_v9 h1 h2 h3).toBuf (Val := Elt F) v = v := cast_eq _ _
theorem wr_main_v23 (v : (⟨S1600000x4, .f32⟩ : BufTy).Contents (Elt F)) (h1 : main_v23.ty = (⟨S1600000x4, .f32⟩ : BufTy)) (h2 : main_v23.space ≠ .host) (h3 : main_v23.isScoped = false) :
    (TRef.of (T := ⟨S1600000x4, .f32⟩) main_v23 h1 h2 h3).toBuf (Val := Elt F) v = v := cast_eq _ _
theorem wr_main_v15 (v : (⟨S1600000x4, .f32⟩ : BufTy).Contents (Elt F)) (h1 : main_v15.ty = (⟨S1600000x4, .f32⟩ : BufTy)) (h2 : main_v15.space ≠ .host) (h3 : main_v15.isScoped = false) :
    (TRef.of (T := ⟨S1600000x4, .f32⟩) main_v15 h1 h2 h3).toBuf (Val := Elt F) v = v := cast_eq _ _
theorem wr_main_v24 (v : (⟨S1600000x32, .f32⟩ : BufTy).Contents (Elt F)) (h1 : main_v24.ty = (⟨S1600000x32, .f32⟩ : BufTy)) (h2 : main_v24.space ≠ .host) (h3 : main_v24.isScoped = false) :
    (TRef.of (T := ⟨S1600000x32, .f32⟩) main_v24 h1 h2 h3).toBuf (Val := Elt F) v = v := cast_eq _ _

/-! ## What each stretch leaves in the buffers later lines read -/

/-- The three column ranges of the region's result. -/
theorem s0_v5 (Y : Valuation τ sig (Elt F)) : StableHlo.after hostOps1 Y (Proc.devRef .tc main_v5)
    = extractStridedSlice S100000x32 ![0, 0] (Y (Proc.devRef .tc main_v4)) Facts₀.slices_S100000x40_S100000x32_0_0 := by
  simp only [hostOps1]; after_results_simp
theorem s0_v6 (Y : Valuation τ sig (Elt F)) : StableHlo.after hostOps1 Y (Proc.devRef .tc main_v6)
    = extractStridedSlice S100000x4 ![0, 32] (Y (Proc.devRef .tc main_v4)) Facts₀.slices_S100000x40_S100000x4_0_32 := by
  simp only [hostOps1]; after_results_simp
theorem s0_v7 (Y : Valuation τ sig (Elt F)) : StableHlo.after hostOps1 Y (Proc.devRef .tc main_v7)
    = extractStridedSlice S100000x4 ![0, 36] (Y (Proc.devRef .tc main_v4)) Facts₀.slices_S100000x40_S100000x4_0_36 := by
  simp only [hostOps1]; after_results_simp

/-- The source terms gathered at the source row. -/
theorem s1_v8 (Y : Valuation τ sig (Elt F)) : StableHlo.after hostOps1_1 Y (Proc.devRef .tc main_v8)
    = Tail.take4 (Y (Proc.devRef .tc main_v6)) (Y (Proc.devRef .tc main_v1)) := by
  simp only [hostOps1_1]
  after_results_simp
  simp only [ofBuf_toBuf, rd_main_v1, rd_main_v6, wr_main_v8]
  rfl

/-- The destination terms gathered at the destination row. -/
theorem s2_v9 (Y : Valuation τ sig (Elt F)) : StableHlo.after hostOps1_2 Y (Proc.devRef .tc main_v9)
    = Tail.take4 (Y (Proc.devRef .tc main_v7)) (Y (Proc.devRef .tc main_v3)) := by
  simp only [hostOps1_2]
  after_results_simp
  simp only [ofBuf_toBuf, rd_main_v3, rd_main_v7, wr_main_v9]
  rfl

/-- The logits, their sign test and their scaled copy. -/
theorem s3_v10 (Y : Valuation τ sig (Elt F)) : StableHlo.after hostOps1_3 Y (Proc.devRef .tc main_v10)
    = addf (Y (Proc.devRef .tc main_v8)) (Y (Proc.devRef .tc main_v9)) := by
  simp only [hostOps1_3]; after_results_simp
theorem s3_v12 (Y : Valuation τ sig (Elt F)) : StableHlo.after hostOps1_3 Y (Proc.devRef .tc main_v12)
    = cmpf .ogt (addf (Y (Proc.devRef .tc main_v8)) (Y (Proc.devRef .tc main_v9)))
        (broadcastInDim S1600000x4 ![] Facts₀.bcast_S_S1600000x4 (constant S_ .f32 0x00000000#32)) := by
  simp only [hostOps1_3]; after_results_simp
theorem s3_v14 (Y : Valuation τ sig (Elt F)) : StableHlo.after hostOps1_3 Y (Proc.devRef .tc main_v14)
    = mulf (broadcastInDim S1600000x4 ![] Facts₀.bcast_S_S1600000x4 (constant S_ .f32 0x3E4CCCCD#32))
        (addf (Y (Proc.devRef .tc main_v8)) (Y (Proc.devRef .tc main_v9))) := by
  simp only [hostOps1_3]; after_results_simp

/-- The selection of the leaky rectifier. -/
theorem s4_v15 (Y : Valuation τ sig (Elt F)) : StableHlo.after hostOps1_4 Y (Proc.devRef .tc main_v15)
    = select (Y (Proc.devRef .tc main_v12)) (Y (Proc.devRef .tc main_v10)) (Y (Proc.devRef .tc main_v14)) := by
  simp only [hostOps1_4]
  after_results_simp
  simp only [ofBuf_toBuf, rd_main_v12, rd_main_v10, rd_main_v14, wr_main_v15]

/-- The shifted exponentials and their sums per source node. -/
theorem s5_v19 (Y : Valuation τ sig (Elt F)) : StableHlo.after hostOps1_5 Y (Proc.devRef .tc main_v19)
    = Tail.expShift (Y (Proc.devRef .tc main_v15)) := by
  simp only [hostOps1_5]; after_results_simp; rfl
theorem s5_v22 (Y : Valuation τ sig (Elt F)) : StableHlo.after hostOps1_5 Y (Proc.devRef .tc main_v22)
    = Tail.denom (Tail.expShift (Y (Proc.devRef .tc main_v15))) (Y (Proc.devRef .tc main_v1)) := by
  simp only [hostOps1_5]; after_results_simp; rfl

/-- The sums gathered back at the source row. -/
theorem s6_v23 (Y : Valuation τ sig (Elt F)) : StableHlo.after hostOps1_6 Y (Proc.devRef .tc main_v23)
    = Tail.take4 (Y (Proc.devRef .tc main_v22)) (Y (Proc.devRef .tc main_v1)) := by
  simp only [hostOps1_6]
  after_results_simp
  simp only [ofBuf_toBuf, rd_main_v1, rd_main_v22, wr_main_v23]
  rfl

/-- The projected rows gathered at the source row. -/
theorem s7_v24 (Y : Valuation τ sig (Elt F)) : StableHlo.after hostOps1_7 Y (Proc.devRef .tc main_v24)
    = Tail.take32 (Y (Proc.devRef .tc main_v5)) (Y (Proc.devRef .tc main_v1)) := by
  simp only [hostOps1_7]
  after_results_simp
  simp only [ofBuf_toBuf, rd_main_v1, rd_main_v5, wr_main_v24]
  rfl

/-- The weights, the messages and their sums per destination node. -/
theorem s8_v36 (Y : Valuation τ sig (Elt F)) : StableHlo.after hostOps1_8 Y (Proc.devRef .tc main_v36)
    = Tail.aggregate (Tail.messages (Y (Proc.devRef .tc main_v24))
        (Tail.weights (Y (Proc.devRef .tc main_v19)) (Y (Proc.devRef .tc main_v23)))) (Y (Proc.devRef .tc main_v3)) := by
  simp only [hostOps1_8]; after_results_simp; rfl

/-! ## The nine stretches composed -/

/-- The result buffer after the lines that follow the region, from any contents `X` before them. -/
theorem tail_after (X : Valuation τ sig (Elt F)) :
    StableHlo.after (tailOps (F := F)).flatten X (Proc.devRef .tc main_v36)
      = Tail.tailK
          (extractStridedSlice S100000x32 ![0, 0] (X (Proc.devRef .tc main_v4)) Facts₀.slices_S100000x40_S100000x32_0_0)
          (extractStridedSlice S100000x4 ![0, 32] (X (Proc.devRef .tc main_v4)) Facts₀.slices_S100000x40_S100000x4_0_32)
          (extractStridedSlice S100000x4 ![0, 36] (X (Proc.devRef .tc main_v4)) Facts₀.slices_S100000x40_S100000x4_0_36)
          (X (Proc.devRef .tc main_v1)) (X (Proc.devRef .tc main_v3)) := by
  simp only [tailOps, List.flatten_cons, List.flatten_nil, List.append_nil, StableHlo.after_append]
  rw [s8_v36]
  rw [s7_v24, keep hostOps1_7_lo (r := main_v19) (by decide), keep hostOps1_7_lo (r := main_v23) (by decide),
    keep hostOps1_7_lo (r := main_v3) (by decide)]
  rw [s6_v23, keep hostOps1_6_lo (r := main_v5) (by decide), keep hostOps1_6_lo (r := main_v1) (by decide),
    keep hostOps1_6_lo (r := main_v19) (by decide), keep hostOps1_6_lo (r := main_v3) (by decide)]
  rw [s5_v19, s5_v22, keep hostOps1_5_lo (r := main_v5) (by decide), keep hostOps1_5_lo (r := main_v1) (by decide),
    keep hostOps1_5_lo (r := main_v3) (by decide)]
  rw [s4_v15, keep hostOps1_4_lo (r := main_v5) (by decide), keep hostOps1_4_lo (r := main_v1) (by decide),
    keep hostOps1_4_lo (r := main_v3) (by decide)]
  rw [s3_v10, s3_v12, s3_v14, keep hostOps1_3_lo (r := main_v5) (by decide), keep hostOps1_3_lo (r := main_v1) (by decide),
    keep hostOps1_3_lo (r := main_v3) (by decide)]
  rw [s2_v9, keep hostOps1_2_lo (r := main_v8) (by decide), keep hostOps1_2_lo (r := main_v5) (by decide),
    keep hostOps1_2_lo (r := main_v1) (by decide), keep hostOps1_2_lo (r := main_v3) (by decide)]
  rw [s1_v8, keep hostOps1_1_lo (r := main_v7) (by decide), keep hostOps1_1_lo (r := main_v5) (by decide),
    keep hostOps1_1_lo (r := main_v1) (by decide), keep hostOps1_1_lo (r := main_v3) (by decide)]
  rw [s0_v5, s0_v6, s0_v7, keep hostOps1_from (r := main_v1) (by decide), keep hostOps1_from (r := main_v3) (by decide)]
  rfl

end Cert.KernelIdeal.Hand

end
-- ==== Proof.IdealResult.lean ====
/-
  The result buffer at the end of the idealized kernel program's run: the tail function of the three column ranges
  of the region's result array and of the two rows of the edge list. The region leaves every buffer but its six
  arrays as it found them, so the lines after it read the edge rows that the lines before it wrote, and those are
  the rows of the launched edge list.
-/
import proofs.«408319_j53352083751473_3_alg».proof.Proof.IdealRun
import proofs.«408319_j53352083751473_3_alg».proof.Proof.IdealTail

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The source row the region finds is the first row of the launched edge list. -/
theorem V_main_v1 (c : Dev nD) : V m c main_v1 = Tail.srcRow (m ((c : Thread nD τ).loc main_arg5)) := by
  dsimp only [V, V0]
  simp only [hostOps0, List.flatten_cons, List.flatten_nil, List.append_nil]
  after_results
  rfl

/-- The destination row the region finds is the second row of the launched edge list. -/
theorem V_main_v3 (c : Dev nD) : V m c main_v3 = Tail.dstRow (m ((c : Thread nD τ).loc main_arg5)) := by
  dsimp only [V, V0]
  simp only [hostOps0, List.flatten_cons, List.flatten_nil, List.append_nil]
  after_results
  rfl

/-- The result buffer after the run. -/
theorem endV_v36 (c : Dev nD) :
    endV m c main_v36
      = Tail.tailK
          (extractStridedSlice S100000x32 ![0, 0] ((dats m 0 c).arrAt 5 cfg0.N) Facts₀.slices_S100000x40_S100000x32_0_0)
          (extractStridedSlice S100000x4 ![0, 32] ((dats m 0 c).arrAt 5 cfg0.N) Facts₀.slices_S100000x40_S100000x4_0_32)
          (extractStridedSlice S100000x4 ![0, 36] ((dats m 0 c).arrAt 5 cfg0.N) Facts₀.slices_S100000x40_S100000x4_0_36)
          (Tail.srcRow (m ((c : Thread nD τ).loc main_arg5))) (Tail.dstRow (m ((c : Thread nD τ).loc main_arg5))) := by
  have h4 : Pipeline.withArrays spec0 c (V0 m c) (fun w => (dats m 0 c).arrAt w cfg0.N) (Proc.devRef .tc main_v4)
      = (dats m 0 c).arrAt 5 cfg0.N :=
    Pipeline.withArrays_arr spec0 launch0.win.arr_inj c (V0 m c) (fun w => (dats m 0 c).arrAt w cfg0.N) 5
  have h1 : Pipeline.withArrays spec0 c (V0 m c) (fun w => (dats m 0 c).arrAt w cfg0.N) (Proc.devRef .tc main_v1)
      = Tail.srcRow (m ((c : Thread nD τ).loc main_arg5)) :=
    (Pipeline.withArrays_of_ne spec0 c (V0 m c) _ main_v1 (by exact (by decide : ∀ w, Pipeline.arrRef spec0 w ≠ main_v1))).trans
      (V_main_v1 m c)
  have h3 : Pipeline.withArrays spec0 c (V0 m c) (fun w => (dats m 0 c).arrAt w cfg0.N) (Proc.devRef .tc main_v3)
      = Tail.dstRow (m ((c : Thread nD τ).loc main_arg5)) :=
    (Pipeline.withArrays_of_ne spec0 c (V0 m c) _ main_v3 (by exact (by decide : ∀ w, Pipeline.arrRef spec0 w ≠ main_v3))).trans
      (V_main_v3 m c)
  unfold endV Pipeline.afterTail₀
  rw [tail_after, h4, h1, h3]

end Cert.KernelIdeal.Hand

end
-- ==== Proof.Spec.lean ====
/-
  What the dense part computes, one node at a time, over the extended reals. From a node's 128 features `f`, the
  weight matrix `w` (32 × 128) and the bias `b`: the projected row `f · wᵀ + b` of 32 numbers; from a projected
  row `p` and an attention matrix `a` (4 × 32): the four numbers `p · aᵀ`. The kernel's region writes, per node, the
  projected row followed by the four source terms and the four destination terms: forty numbers.
-/
import Idealize.ShloMosaic.PureOps.Ideal
import Idealize.ShloMosaic.Lib.ValueIdx

noncomputable section

namespace Cert.Bridge

open Idealize.ShloMosaic Idealize.ShloMosaic.ValueIdx

/-- A node's projected row: the features against each row of the weights, plus the bias. -/
def projRow (f : Fin 128 → EReal) (w : (⟨2, ![32, 128]⟩ : Shape).Idx → EReal) (b : (⟨1, ![32]⟩ : Shape).Idx → EReal)
    (q : Fin 32) : EReal :=
  (∑ k : Fin 128, f k * w (ix2 q k)) + b (ix1 q)

/-- A projected row against each row of an attention matrix. -/
def attRow (p : Fin 32 → EReal) (a : (⟨2, ![4, 32]⟩ : Shape).Idx → EReal) (h : Fin 4) : EReal :=
  ∑ d : Fin 32, p d * a (ix2 h d)

/-- The forty numbers the region writes for a node: the projected row, the source terms, the destination terms. -/
def combRow (f : Fin 128 → EReal) (w : (⟨2, ![32, 128]⟩ : Shape).Idx → EReal) (b : (⟨1, ![32]⟩ : Shape).Idx → EReal)
    (a₁ a₂ : (⟨2, ![4, 32]⟩ : Shape).Idx → EReal) (q : Fin 40) : EReal :=
  if h : q.val < 32 then projRow f w b ⟨q.val, h⟩
  else if h' : q.val < 36 then attRow (projRow f w b) a₁ ⟨q.val - 32, by omega⟩
  else attRow (projRow f w b) a₂ ⟨q.val - 36, by omega⟩

/-- The region's whole result array: row `n` is `combRow` of node `n`'s features. -/
def comb (x : (⟨2, ![100000, 128]⟩ : Shape).Idx → EReal) (w : (⟨2, ![32, 128]⟩ : Shape).Idx → EReal)
    (b : (⟨1, ![32]⟩ : Shape).Idx → EReal) (a₁ a₂ : (⟨2, ![4, 32]⟩ : Shape).Idx → EReal) :
    (⟨2, ![100000, 40]⟩ : Shape).Idx → EReal :=
  fun i => combRow (fun k => x (ix2 (n0 := 100000) (i 0) k)) w b a₁ a₂ (i 1)

end Cert.Bridge

end
-- ==== Proof.PayRow.lean ====
/-
  The kernel body's one stored value, read at a row and a column: row `r` of the stored block depends only on row
  `r` of the feature block, and is that node's forty numbers. At the ideal instance the changes of float format are
  the identity and each matrix product into a zero accumulator is the plain sum of products.
-/
import proofs.«408319_j53352083751473_3_alg».proof.Proof.Spec
import proofs.«408319_j53352083751473_3_alg».proof.Proof.Gen.KernelIdeal.Skeleton
import Idealize.ShloMosaic.PureOps.Ideal.Laws
import Idealize.ShloMosaic.Lib.Pipeline.Value
import Idealize.ShloMosaic.Lib.ValueLayout

noncomputable section

namespace Cert.Bridge

open Idealize.ShloMosaic Idealize.ShloMosaic.ValueIdx

section
open Cert.KernelIdeal Cert.KernelIdeal.Gen

/-! The first matrix product's operand indices, one axis at a time. -/
theorem pay_lhsA_0 (i : S10000x32.Idx) (c : dot_S10000x128_S128x32_S10000x32_1_0_0_1_n_n.contr.Idx) :
    (dot_S10000x128_S128x32_S10000x32_1_0_0_1_n_n.lhsIdx i c 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem pay_lhsA_1 (i : S10000x32.Idx) (c : dot_S10000x128_S128x32_S10000x32_1_0_0_1_n_n.contr.Idx) :
    (dot_S10000x128_S128x32_S10000x32_1_0_0_1_n_n.lhsIdx i c 1).val = (c ⟨0, by decide⟩).val :=
  dot_S10000x128_S128x32_S10000x32_1_0_0_1_n_n.lhsIdx_val_of_single rfl i c
theorem pay_rhsA_0 (i : S10000x32.Idx) (c : dot_S10000x128_S128x32_S10000x32_1_0_0_1_n_n.contr.Idx) :
    (dot_S10000x128_S128x32_S10000x32_1_0_0_1_n_n.rhsIdx i c 0).val = (c ⟨0, by decide⟩).val :=
  dot_S10000x128_S128x32_S10000x32_1_0_0_1_n_n.rhsIdx_val_of_single rfl i c
theorem pay_rhsA_1 (i : S10000x32.Idx) (c : dot_S10000x128_S128x32_S10000x32_1_0_0_1_n_n.contr.Idx) :
    (dot_S10000x128_S128x32_S10000x32_1_0_0_1_n_n.rhsIdx i c 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- The first product into a zero accumulator, read at row `r`, column `q`: the row of the left operand against the
    column of the right one. -/
theorem pay_mmA_apply (lhs : FVec Ideal S10000x128 .bf16) (rhs : FVec Ideal S128x32 .bf16) (r : Fin 10000) (q : Fin 32) :
    matmul (F := Ideal) dot_S10000x128_S128x32_S10000x32_1_0_0_1_n_n none lhs rhs
        (constant (F := Ideal) S10000x32 .f32 0x00000000#32) (ix2 r q)
      = ∑ k : Fin 128, lhs (ix2 r k) * rhs (ix2 k q) := by
  simp only [matmul]
  rw [Ideal.matmul_constant_zero_apply, ← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : dot_S10000x128_S128x32_S10000x32_1_0_0_1_n_n.lhsIdx (ix2 r q) ((contrEquiv1 dot_S10000x128_S128x32_S10000x32_1_0_0_1_n_n 128 rfl rfl).symm k) = ix2 r k := funext fun a => Fin.ext (by
    match a with
    | ⟨0, _⟩ => exact pay_lhsA_0 _ _
    | ⟨1, _⟩ => exact (pay_lhsA_1 _ _).trans hk)
  have er : dot_S10000x128_S128x32_S10000x32_1_0_0_1_n_n.rhsIdx (ix2 r q) ((contrEquiv1 dot_S10000x128_S128x32_S10000x32_1_0_0_1_n_n 128 rfl rfl).symm k) = ix2 k q := funext fun a => Fin.ext (by
    match a with
    | ⟨0, _⟩ => exact (pay_rhsA_0 _ _).trans hk
    | ⟨1, _⟩ => exact pay_rhsA_1 _ _)
  rw [el, er]

/-! The second matrix product's operand indices, one axis at a time. -/
theorem pay_lhsB_0 (i : S10000x4.Idx) (c : dot_S10000x32_S32x4_S10000x4_1_0_0_1_n_n.contr.Idx) :
    (dot_S10000x32_S32x4_S10000x4_1_0_0_1_n_n.lhsIdx i c 0).val = (i 0).val := by
  unfold DotDims.lhsIdx
  rw [dif_neg (show ¬(0 : Fin S10000x32.rank) ∈ dot_S10000x32_S32x4_S10000x4_1_0_0_1_n_n.lhsBatch by decide), dif_pos (show (0 : Fin S10000x32.rank) ∈ dot_S10000x32_S32x4_S10000x4_1_0_0_1_n_n.lhsNonContracting by decide)]
  rfl
theorem pay_lhsB_1 (i : S10000x4.Idx) (c : dot_S10000x32_S32x4_S10000x4_1_0_0_1_n_n.contr.Idx) :
    (dot_S10000x32_S32x4_S10000x4_1_0_0_1_n_n.lhsIdx i c 1).val = (c ⟨0, by decide⟩).val :=
  dot_S10000x32_S32x4_S10000x4_1_0_0_1_n_n.lhsIdx_val_of_single rfl i c
theorem pay_rhsB_0 (i : S10000x4.Idx) (c : dot_S10000x32_S32x4_S10000x4_1_0_0_1_n_n.contr.Idx) :
    (dot_S10000x32_S32x4_S10000x4_1_0_0_1_n_n.rhsIdx i c 0).val = (c ⟨0, by decide⟩).val :=
  dot_S10000x32_S32x4_S10000x4_1_0_0_1_n_n.rhsIdx_val_of_single rfl i c
theorem pay_rhsB_1 (i : S10000x4.Idx) (c : dot_S10000x32_S32x4_S10000x4_1_0_0_1_n_n.contr.Idx) :
    (dot_S10000x32_S32x4_S10000x4_1_0_0_1_n_n.rhsIdx i c 1).val = (i 1).val := by
  unfold DotDims.rhsIdx
  rw [dif_neg (show ¬(1 : Fin S32x4.rank) ∈ dot_S10000x32_S32x4_S10000x4_1_0_0_1_n_n.rhsBatch by decide), dif_pos (show (1 : Fin S32x4.rank) ∈ dot_S10000x32_S32x4_S10000x4_1_0_0_1_n_n.rhsNonContracting by decide)]
  rfl

/-- The second product into a zero accumulator, read at row `r`, column `h`. -/
theorem pay_mmB_apply (lhs : FVec Ideal S10000x32 .bf16) (rhs : FVec Ideal S32x4 .bf16) (r : Fin 10000) (h : Fin 4) :
    matmul (F := Ideal) dot_S10000x32_S32x4_S10000x4_1_0_0_1_n_n none lhs rhs
        (constant (F := Ideal) S10000x4 .f32 0x00000000#32) (ix2 r h)
      = ∑ d : Fin 32, lhs (ix2 r d) * rhs (ix2 d h) := by
  simp only [matmul]
  rw [Ideal.matmul_constant_zero_apply, ← Equiv.sum_comp (contrEquiv1 dot_S10000x32_S32x4_S10000x4_1_0_0_1_n_n 32 rfl rfl).symm]
  refine Finset.sum_congr rfl fun d _ => ?_
  have hd := contrEquiv1_symm_val dot_S10000x32_S32x4_S10000x4_1_0_0_1_n_n 32 rfl rfl d
  have el : dot_S10000x32_S32x4_S10000x4_1_0_0_1_n_n.lhsIdx (ix2 r h) ((contrEquiv1 dot_S10000x32_S32x4_S10000x4_1_0_0_1_n_n 32 rfl rfl).symm d) = ix2 r d := funext fun a => Fin.ext (by
    match a with
    | ⟨0, _⟩ => exact pay_lhsB_0 _ _
    | ⟨1, _⟩ => exact (pay_lhsB_1 _ _).trans hd)
  have er : dot_S10000x32_S32x4_S10000x4_1_0_0_1_n_n.rhsIdx (ix2 r h) ((contrEquiv1 dot_S10000x32_S32x4_S10000x4_1_0_0_1_n_n 32 rfl rfl).symm d) = ix2 d h := funext fun a => Fin.ext (by
    match a with
    | ⟨0, _⟩ => exact (pay_rhsB_0 _ _).trans hd
    | ⟨1, _⟩ => exact pay_rhsB_1 _ _)
  rw [el, er]

/-- The projected block: the features against the transposed weights, plus the bias laid on every row. -/
def pay_proj (xb : Vec Ideal S10000x128 .f32) (x1 : Vec Ideal S32x128 .f32) (x2 : Vec Ideal S32 .f32) :
    FVec Ideal S10000x32 .f32 :=
  addf (matmul (F := Ideal) dot_S10000x128_S128x32_S10000x32_1_0_0_1_n_n none (truncf .bf16 xb bitsLt_bf16_f32)
      (transpose S128x32 [1, 0] (truncf .bf16 x1 bitsLt_bf16_f32) transposes_S32x128_p1_0_S128x32)
      (constant (F := Ideal) S10000x32 .f32 0x00000000#32))
    (broadcastTo S10000x32 (shapeCast S1x32 x2 shapeCasts_S32_S1x32) broadcasts_S1x32_S10000x32)

/-- An attention block: a projected block against a transposed attention matrix. -/
def pay_att (p : FVec Ideal S10000x32 .f32) (a : Vec Ideal S4x32 .f32) : FVec Ideal S10000x4 .f32 :=
  matmul (F := Ideal) dot_S10000x32_S32x4_S10000x4_1_0_0_1_n_n none (truncf .bf16 p bitsLt_bf16_f32)
    (transpose S32x4 [1, 0] (truncf .bf16 a bitsLt_bf16_f32) transposes_S4x32_p1_0_S32x4)
    (constant (F := Ideal) S10000x4 .f32 0x00000000#32)

/-- The stored value is the projected block and the two attention blocks side by side. -/
theorem pay_eq_concat (xb : Vec Ideal S10000x128 .f32) (x1 : Vec Ideal S32x128 .f32) (x2 : Vec Ideal S32 .f32)
    (x3 x4 : Vec Ideal S4x32 .f32) :
    Gen.k0_pay1 (F := Ideal) xb x1 x2 x3 x4
      = concatenate S10000x40 1 [⟨S10000x32, pay_proj xb x1 x2⟩, ⟨S10000x4, pay_att (pay_proj xb x1 x2) x3⟩,
          ⟨S10000x4, pay_att (pay_proj xb x1 x2) x4⟩] concatenates_S10000x32_S10000x4_S10000x4_S10000x40_d1 := rfl

/-- The projected block at row `r`, column `q` is the projected row of node `r`'s features at `q`. -/
theorem pay_proj_apply (xb : Vec Ideal S10000x128 .f32) (x1 : Vec Ideal S32x128 .f32) (x2 : Vec Ideal S32 .f32)
    (r : Fin 10000) (q : Fin 32) :
    pay_proj xb x1 x2 (ix2 r q) = projRow (fun k => xb (ix2 r k)) x1 x2 q := by
  unfold pay_proj projRow
  rw [addf_apply, pay_mmA_apply, broadcastTo_1b_ab_apply, shapeCast_a_1a_apply]
  refine congrArg (· + x2 (ix1 q)) (Finset.sum_congr rfl fun k _ => ?_)
  rw [truncf_apply, transpose_ix2_apply, truncf_apply]

/-- An attention block at row `r`, column `h` is row `r` of the projected block against row `h` of the matrix. -/
theorem pay_att_apply (p : FVec Ideal S10000x32 .f32) (a : Vec Ideal S4x32 .f32) (r : Fin 10000) (h : Fin 4) :
    pay_att p a (ix2 r h) = attRow (fun d => p (ix2 r d)) a h := by
  unfold pay_att attRow
  rw [pay_mmB_apply]
  refine Finset.sum_congr rfl fun d _ => ?_
  rw [truncf_apply, transpose_ix2_apply, truncf_apply]

/-- Three blocks of widths 32, 4 and 4 laid side by side, read at row `r`, column `q`: the block whose columns hold
    `q`, at `q` less the widths before it. -/
theorem pay_concat_apply (P : FVec Ideal S10000x32 .f32) (A B : FVec Ideal S10000x4 .f32) (r : Fin 10000) (q : Fin 40) :
    concatenate S10000x40 1 [⟨S10000x32, P⟩, ⟨S10000x4, A⟩, ⟨S10000x4, B⟩] concatenates_S10000x32_S10000x4_S10000x4_S10000x40_d1 (ix2 r q)
      = if h : q.val < 32 then P (ix2 r ⟨q.val, h⟩)
        else if h' : q.val < 36 then A (ix2 r ⟨q.val - 32, by omega⟩)
        else B (ix2 r ⟨q.val - 36, by omega⟩) := by
  by_cases h1 : q.val < 32
  · rw [dif_pos h1]
    refine concatenate_apply_piece (1 : Fin S10000x40.rank) (xs := [⟨S10000x32, P⟩, ⟨S10000x4, A⟩, ⟨S10000x4, B⟩]) concatenates_S10000x32_S10000x4_S10000x4_S10000x40_d1 (ix2 r q) 0
      (by show (0 : Nat) < 3; omega) S10000x32 P rfl rfl 0 rfl (ix2 r ⟨q.val, h1⟩) ?_ ?_
    · intro b hb
      match b with
      | ⟨0, _⟩ => rfl
      | ⟨1, _⟩ => exact absurd rfl hb
    · show 0 + q.val = q.val
      omega
  · rw [dif_neg h1]
    by_cases h2 : q.val < 36
    · rw [dif_pos h2]
      refine concatenate_apply_piece (1 : Fin S10000x40.rank) (xs := [⟨S10000x32, P⟩, ⟨S10000x4, A⟩, ⟨S10000x4, B⟩]) concatenates_S10000x32_S10000x4_S10000x4_S10000x40_d1 (ix2 r q) 1
        (by show (1 : Nat) < 3; omega) S10000x4 A rfl rfl 32 rfl (ix2 r ⟨q.val - 32, by omega⟩) ?_ ?_
      · intro b hb
        match b with
        | ⟨0, _⟩ => rfl
        | ⟨1, _⟩ => exact absurd rfl hb
      · show 32 + (q.val - 32) = q.val
        omega
    · rw [dif_neg h2]
      have h3 : q.val < 40 := q.isLt
      refine concatenate_apply_piece (1 : Fin S10000x40.rank) (xs := [⟨S10000x32, P⟩, ⟨S10000x4, A⟩, ⟨S10000x4, B⟩]) concatenates_S10000x32_S10000x4_S10000x4_S10000x40_d1 (ix2 r q) 2
        (by show (2 : Nat) < 3; omega) S10000x4 B rfl rfl 36 rfl (ix2 r ⟨q.val - 36, by omega⟩) ?_ ?_
      · intro b hb
        match b with
        | ⟨0, _⟩ => rfl
        | ⟨1, _⟩ => exact absurd rfl hb
      · show 36 + (q.val - 36) = q.val
        omega

end

theorem pay_row (xb : Vec Ideal Cert.KernelIdeal.S10000x128 .f32) (x1 : Vec Ideal Cert.KernelIdeal.S32x128 .f32)
    (x2 : Vec Ideal Cert.KernelIdeal.S32 .f32) (x3 x4 : Vec Ideal Cert.KernelIdeal.S4x32 .f32) (r : Fin 10000) (q : Fin 40) :
    Cert.KernelIdeal.Gen.k0_pay1 (F := Ideal) xb x1 x2 x3 x4 (ix2 r q)
      = combRow (fun k => xb (ix2 r k)) x1 x2 x3 x4 q := by
  rw [pay_eq_concat, pay_concat_apply]
  unfold combRow
  have hp : (fun d : Fin 32 => pay_proj xb x1 x2 (ix2 r d)) = projRow (fun k => xb (ix2 r k)) x1 x2 :=
    funext fun d => pay_proj_apply xb x1 x2 r d
  by_cases h1 : q.val < 32
  · rw [dif_pos h1, dif_pos h1]
    exact pay_proj_apply xb x1 x2 r ⟨q.val, h1⟩
  · rw [dif_neg h1, dif_neg h1]
    by_cases h2 : q.val < 36
    · rw [dif_pos h2, dif_pos h2, ← hp]
      exact pay_att_apply (pay_proj xb x1 x2) x3 r _
    · rw [dif_neg h2, dif_neg h2, ← hp]
      exact pay_att_apply (pay_proj xb x1 x2) x4 r _

end Cert.Bridge

end
-- ==== Proof.IdealArr.lean ====
/-
  The region's result array after the run, in closed form. The ten grid points write the ten blocks of ten thousand
  rows; block `t` of the result holds, row by row, the forty numbers of the nodes `10000·t … 10000·t + 9999`, computed
  from the same rows of the feature array and the four parameter arrays (whose single block every point reads). The
  blocks tile the array, so the array is the row-wise function of the argument arrays.
-/
import proofs.«408319_j53352083751473_3_alg».proof.Proof.IdealBody
import proofs.«408319_j53352083751473_3_alg».proof.Proof.IdealHostFacts
import proofs.«408319_j53352083751473_3_alg».proof.Proof.PayRow
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ### Where each window's block sits -/

/-- The block index of every window at every one of the ten grid points: the feature window and the result window are
    at block `(t, 0)`, each parameter window at its one block. -/
theorem arr_idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row `r` of the feature block at point `t` is row `10000·t + r` of the feature array. -/
theorem arr_iblk0 (c : Dev nD) (t : Fin cfg0.N) (r : Fin 10000) (k : Fin 128) (n : Fin 100000)
    (hn : n.val = 10000 * t.val + r.val) :
    iblk m c 0 t (ix2 r k) = V m c main_arg0 (ix2 n k) := by
  unfold iblk
  rw [View.read_apply]
  show V m c main_arg0 (((cfg0.win 0).blk t).view.emb (ix2 r k)) = V m c main_arg0 (ix2 n k)
  refine congrArg (V m c main_arg0) ?_
  obtain ⟨e0, e1, -⟩ := arr_idx_facts t
  funext a; apply Fin.ext
  match a with
  | ⟨0, _⟩ => show win0_0.index t (0 : Fin 2) * 10000 + 1 * r.val = n.val; omega
  | ⟨1, _⟩ => show win0_0.index t (1 : Fin 2) * 128 + 1 * k.val = k.val; omega

/-- The weight window's block at any point is the whole weight array. -/
theorem arr_iblk1 (c : Dev nD) (t : Fin cfg0.N) : iblk m c 1 t = V m c main_arg1 := by
  unfold iblk
  funext y
  rw [View.read_apply]
  show V m c main_arg1 (((cfg0.win 1).blk t).view.emb y) = V m c main_arg1 y
  refine congrArg (V m c main_arg1) ?_
  obtain ⟨-, -, -, -, e0, e1, -⟩ := arr_idx_facts t
  funext a; apply Fin.ext
  match a with
  | ⟨0, _⟩ => show win0_1.index t (0 : Fin 2) * 32 + 1 * (y 0).val = (y 0).val; omega
  | ⟨1, _⟩ => show win0_1.index t (1 : Fin 2) * 128 + 1 * (y 1).val = (y 1).val; omega

/-- The bias window's block at any point is the whole bias array. -/
theorem arr_iblk2 (c : Dev nD) (t : Fin cfg0.N) : iblk m c 2 t = V m c main_arg2 := by
  unfold iblk
  funext y
  rw [View.read_apply]
  show V m c main_arg2 (((cfg0.win 2).blk t).view.emb y) = V m c main_arg2 y
  refine congrArg (V m c main_arg2) ?_
  obtain ⟨-, -, -, -, -, -, e0, -⟩ := arr_idx_facts t
  funext a; apply Fin.ext
  match a with
  | ⟨0, _⟩ => show win0_2.index t (0 : Fin 1) * 32 + 1 * (y 0).val = (y 0).val; omega

/-- The source attention window's block at any point is the whole source attention array. -/
theorem arr_iblk3 (c : Dev nD) (t : Fin cfg0.N) : iblk m c 3 t = V m c main_arg3 := by
  unfold iblk
  funext y
  rw [View.read_apply]
  show V m c main_arg3 (((cfg0.win 3).blk t).view.emb y) = V m c main_arg3 y
  refine congrArg (V m c main_arg3) ?_
  obtain ⟨-, -, -, -, -, -, -, e0, e1, -⟩ := arr_idx_facts t
  funext a; apply Fin.ext
  match a with
  | ⟨0, _⟩ => show win0_3.index t (0 : Fin 2) * 4 + 1 * (y 0).val = (y 0).val; omega
  | ⟨1, _⟩ => show win0_3.index t (1 : Fin 2) * 32 + 1 * (y 1).val = (y 1).val; omega

/-- The destination attention window's block at any point is the whole destination attention array. -/
theorem arr_iblk4 (c : Dev nD) (t : Fin cfg0.N) : iblk m c 4 t = V m c main_arg4 := by
  unfold iblk
  funext y
  rw [View.read_apply]
  show V m c main_arg4 (((cfg0.win 4).blk t).view.emb y) = V m c main_arg4 y
  refine congrArg (V m c main_arg4) ?_
  obtain ⟨-, -, -, -, -, -, -, -, -, e0, e1⟩ := arr_idx_facts t
  funext a; apply Fin.ext
  match a with
  | ⟨0, _⟩ => show win0_4.index t (0 : Fin 2) * 4 + 1 * (y 0).val = (y 0).val; omega
  | ⟨1, _⟩ => show win0_4.index t (1 : Fin 2) * 32 + 1 * (y 1).val = (y 1).val; omega

/-! ### What a point writes back -/

/-- One row of the stored block against the same row of the array: with the feature block's rows the array's rows
    `10000·t + r`, the stored block's row `r` is the array function's row `10000·t + r`. -/
theorem arr_point (x0 : Vec Ideal S10000x128 .f32) (x1 : Vec Ideal S32x128 .f32) (x2 : Vec Ideal S32 .f32)
    (x3 x4 : Vec Ideal S4x32 .f32) (A0 : Vec Ideal S100000x128 .f32) (r : Fin 10000) (q : Fin 40) (n : Fin 100000)
    (h0 : ∀ k : Fin 128, x0 (ix2 r k) = A0 (ix2 n k)) :
    outBlk x0 x1 x2 x3 x4 (ix2 r q) = Cert.Bridge.comb A0 x1 x2 x3 x4 (ix2 n q) := by
  unfold outBlk
  refine (Cert.Bridge.pay_row x0 x1 x2 x3 x4 r q).trans ?_
  show Cert.Bridge.combRow (fun k => x0 (ix2 r k)) x1 x2 x3 x4 q = Cert.Bridge.combRow (fun k => A0 (ix2 n k)) x1 x2 x3 x4 q
  refine congrArg (fun f => Cert.Bridge.combRow f x1 x2 x3 x4 q) ?_
  funext k
  exact h0 k

/-- What point `t` writes back is block `t` of the row-wise function of the arrays the region finds. -/
theorem arr_flushed_eq (c : Dev nD) (t : Fin cfg0.N) :
    (dats m 0 c).flushed 5 t = ((cfg0.win 5).blk t).view.read (Elt Ideal)
      (Cert.Bridge.comb (V m c main_arg0) (V m c main_arg1) (V m c main_arg2) (V m c main_arg3) (V m c main_arg4)) := by
  show (cfg0.win 5).cut (grid0.coords t) ((dats m 0 c).after 5 t) = _
  rw [after0_5]
  funext y
  obtain ⟨r, q, rfl⟩ : ∃ (r : Fin 10000) (q : Fin 40), y = (ix2 r q : S10000x40.Idx) :=
    ⟨y 0, y 1, eq_ix2 (n0 := 10000) (n1 := 40) y⟩
  rw [View.read_apply]
  have ht : t.val < 10 := t.isLt
  obtain ⟨-, -, e0, e1, -⟩ := arr_idx_facts t
  have hemb : ((cfg0.win 5).blk t).view.emb (ix2 r q) = (ix2 (⟨10000 * t.val + r.val, by omega⟩ : Fin 100000) q : S100000x40.Idx) := by
    funext a; apply Fin.ext
    match a with
    | ⟨0, _⟩ => show win0_5.index t (0 : Fin 2) * 10000 + 1 * r.val = 10000 * t.val + r.val; omega
    | ⟨1, _⟩ => show win0_5.index t (1 : Fin 2) * 40 + 1 * q.val = q.val; omega
  have hx : (cfg0.win 5).xinj (grid0.coords t) (ix2 r q) = (ix2 r q : S10000x40.Idx) := by
    funext a
    match a with
    | ⟨0, _⟩ => rfl
    | ⟨1, _⟩ => rfl
  show outBlk (iblk m c 0 t) (iblk m c 1 t) (iblk m c 2 t) (iblk m c 3 t) (iblk m c 4 t) ((cfg0.win 5).xinj (grid0.coords t) (ix2 r q))
    = Cert.Bridge.comb (V m c main_arg0) (V m c main_arg1) (V m c main_arg2) (V m c main_arg3) (V m c main_arg4)
        (((cfg0.win 5).blk t).view.emb (ix2 r q))
  rw [hx, hemb, arr_iblk1, arr_iblk2, arr_iblk3, arr_iblk4]
  exact arr_point (iblk m c 0 t) (V m c main_arg1) (V m c main_arg2) (V m c main_arg3) (V m c main_arg4) (V m c main_arg0) r q
    ⟨10000 * t.val + r.val, by omega⟩ (fun k => arr_iblk0 m c t r k _ rfl)

/-! ### The blocks tile the array -/

/-- An index of the result array is in point `t`'s block iff each coordinate is in the block's range on its axis. -/
theorem arr_mem_blk (t : Fin cfg0.N) (i : S100000x40.Idx) :
    i ∈ ((cfg0.win 5).blk t).view.set ↔ ∀ a : Fin 2, win0_5.index t a * S10000x40.size a ≤ (i a).val
      ∧ (i a).val < win0_5.index t a * S10000x40.size a + S10000x40.size a := by
  show i ∈ ((View.whole main_v4).slice (win0_5.rect t)).set ↔ _
  rw [View.set_slice_whole, Rect.mem_set_unit]
  exact Iff.rfl

/-- Every index of the result array lies in the block of the point its row falls to: row `n` in block `n / 10000`. -/
theorem arr_cover (i : S100000x40.Idx) :
    ∃ t : Fin cfg0.N, (cfg0.win 5).flush t = true ∧ i ∈ ((cfg0.win 5).blk t).view.set := by
  have hi0 : (i 0).val < 100000 := (i 0).isLt
  have hi1 : (i 1).val < 40 := (i 1).isLt
  have hlt : (i 0).val / 10000 < 10 := by omega
  refine ⟨⟨(i 0).val / 10000, hlt⟩, flush0_5 _, ?_⟩
  rw [arr_mem_blk]
  obtain ⟨-, -, e0, e1, -⟩ := arr_idx_facts ⟨(i 0).val / 10000, hlt⟩
  have e0' : win0_5.index ⟨(i 0).val / 10000, hlt⟩ (0 : Fin 2) = (i 0).val / 10000 := e0
  intro a
  match a with
  | ⟨0, _⟩ =>
    show win0_5.index ⟨(i 0).val / 10000, hlt⟩ (0 : Fin 2) * 10000 ≤ (i 0).val
      ∧ (i 0).val < win0_5.index ⟨(i 0).val / 10000, hlt⟩ (0 : Fin 2) * 10000 + 10000
    omega
  | ⟨1, _⟩ =>
    show win0_5.index ⟨(i 0).val / 10000, hlt⟩ (1 : Fin 2) * 40 ≤ (i 1).val
      ∧ (i 1).val < win0_5.index ⟨(i 0).val / 10000, hlt⟩ (1 : Fin 2) * 40 + 40
    omega

/-- The region's result array after the last grid point is the row-wise function of the launched argument arrays. -/
theorem arr_eq (c : Dev nD) :
    (dats m 0 c).arrAt 5 cfg0.N
      = (Cert.Bridge.comb (m ((c : Thread nD τ).loc main_arg0)) (m ((c : Thread nD τ).loc main_arg1))
          (m ((c : Thread nD τ).loc main_arg2)) (m ((c : Thread nD τ).loc main_arg3)) (m ((c : Thread nD τ).loc main_arg4))) := by
  rw [← V_main_arg0 m c, ← V_main_arg1 m c, ← V_main_arg2 m c, ← V_main_arg3 m c, ← V_main_arg4 m c]
  exact (dats m 0 c).arrAt_eq_of_cover 5
    (Cert.Bridge.comb (V m c main_arg0) (V m c main_arg1) (V m c main_arg2) (V m c main_arg3) (V m c main_arg4))
    (fun t _ => arr_flushed_eq m c t) arr_cover

end Cert.KernelIdeal.Hand

end
-- ==== Proof.RefRow.lean ====
/-
  The reference's projected rows and attention terms, read at a node, are the same row-wise functions; and the three
  column ranges of the region's forty-column result array are those three arrays.
-/
import proofs.«408319_j53352083751473_3_alg».proof.Proof.Spec
import proofs.«408319_j53352083751473_3_alg».proof.Proof.Gen.KernelIdeal
import proofs.«408319_j53352083751473_3_alg».proof.Proof.Gen.ReferenceIdeal.Read

noncomputable section

namespace Cert.Bridge

open Idealize.ShloMosaic Idealize.ShloMosaic.ValueIdx
open Cert.ReferenceIdeal.Read

/-- Projected rows: the stage that adds the broadcast bias to the features-by-weights product, at row `p` and column
    `q`, is the sum over the 128 features of feature times weight `(q, k)`, plus bias `q`. -/
theorem ref_wh (x0 : (⟨Cert.ReferenceIdeal.S100000x128, .f32⟩ : BufTy).Contents (Elt Ideal))
    (x1 : (⟨Cert.ReferenceIdeal.S32x128, .f32⟩ : BufTy).Contents (Elt Ideal))
    (x2 : (⟨Cert.ReferenceIdeal.S32, .f32⟩ : BufTy).Contents (Elt Ideal)) (p : Fin 100000) (q : Fin 32) :
    val_main_v8 (F := Ideal) x0 x1 x2 (ix2 p q) = projRow (fun k => x0 (ix2 p k)) x1 x2 q := by
  -- the left operand of the product is read at (p, k)
  have e1 : ∀ k : Fin 128, lidx_main_v5 (ix2 p q) k = ix2 p k := fun k => funext fun a => Fin.ext (by
    match a with | ⟨0, _⟩ => rfl | ⟨1, _⟩ => rfl)
  -- the transposed weights at (k, q) are the weights at (q, k)
  have e2 : ∀ k : Fin 128, idx_main_v4 (ridx_main_v5 (ix2 p q) k) = ix2 q k := fun k => funext fun a => Fin.ext (by
    match a with | ⟨0, _⟩ => rfl | ⟨1, _⟩ => rfl)
  -- the twice-broadcast bias at (p, q) is the bias at q
  have e3 : idx_main_v6 (idx_main_v7 (ix2 p q)) = ix1 q := funext fun a => Fin.ext (by
    match a with | ⟨0, _⟩ => rfl)
  rw [val_main_v8_apply, val_main_v5_apply, val_main_v7_apply, val_main_v6_apply]
  simp only [val_main_v4_apply, e1, e2, e3, Ideal.addf_def]
  rfl

/-- Source attention terms: the product of the projected rows with the transposed source attention matrix, at row `p`
    and head `h`, is the sum over the 32 projected numbers of row `p` times attention entry `(h, d)`. -/
theorem ref_asrc (x0 : (⟨Cert.ReferenceIdeal.S100000x128, .f32⟩ : BufTy).Contents (Elt Ideal))
    (x1 : (⟨Cert.ReferenceIdeal.S32x128, .f32⟩ : BufTy).Contents (Elt Ideal))
    (x2 : (⟨Cert.ReferenceIdeal.S32, .f32⟩ : BufTy).Contents (Elt Ideal))
    (x3 : (⟨Cert.ReferenceIdeal.S4x32, .f32⟩ : BufTy).Contents (Elt Ideal)) (p : Fin 100000) (h : Fin 4) :
    val_main_v10 (F := Ideal) x0 x1 x2 x3 (ix2 p h) = attRow (projRow (fun k => x0 (ix2 p k)) x1 x2) x3 h := by
  have e1 : ∀ d : Fin 32, lidx_main_v10 (ix2 p h) d = ix2 p d := fun d => funext fun a => Fin.ext (by
    match a with | ⟨0, _⟩ => rfl | ⟨1, _⟩ => rfl)
  have e2 : ∀ d : Fin 32, idx_main_v9 (ridx_main_v10 (ix2 p h) d) = ix2 h d := fun d => funext fun a => Fin.ext (by
    match a with | ⟨0, _⟩ => rfl | ⟨1, _⟩ => rfl)
  rw [val_main_v10_apply]
  simp only [val_main_v9_apply, e1, e2, ref_wh]
  rfl

/-- Destination attention terms: the same against the destination attention matrix. -/
theorem ref_adst (x0 : (⟨Cert.ReferenceIdeal.S100000x128, .f32⟩ : BufTy).Contents (Elt Ideal))
    (x1 : (⟨Cert.ReferenceIdeal.S32x128, .f32⟩ : BufTy).Contents (Elt Ideal))
    (x2 : (⟨Cert.ReferenceIdeal.S32, .f32⟩ : BufTy).Contents (Elt Ideal))
    (x4 : (⟨Cert.ReferenceIdeal.S4x32, .f32⟩ : BufTy).Contents (Elt Ideal)) (p : Fin 100000) (h : Fin 4) :
    val_main_v12 (F := Ideal) x0 x1 x2 x4 (ix2 p h) = attRow (projRow (fun k => x0 (ix2 p k)) x1 x2) x4 h := by
  have e1 : ∀ d : Fin 32, lidx_main_v12 (ix2 p h) d = ix2 p d := fun d => funext fun a => Fin.ext (by
    match a with | ⟨0, _⟩ => rfl | ⟨1, _⟩ => rfl)
  have e2 : ∀ d : Fin 32, idx_main_v11 (ridx_main_v12 (ix2 p h) d) = ix2 h d := fun d => funext fun a => Fin.ext (by
    match a with | ⟨0, _⟩ => rfl | ⟨1, _⟩ => rfl)
  rw [val_main_v12_apply]
  simp only [val_main_v11_apply, e1, e2, ref_wh]
  rfl

/-- Columns 0..31 of a node's forty numbers are its projected row. -/
theorem slice_row_wh (f : Fin 128 → EReal) (w : (⟨2, ![32, 128]⟩ : Shape).Idx → EReal) (b : (⟨1, ![32]⟩ : Shape).Idx → EReal)
    (a₁ a₂ : (⟨2, ![4, 32]⟩ : Shape).Idx → EReal) (q : Fin 32) (hq : q.val < 40) :
    combRow f w b a₁ a₂ ⟨q.val, hq⟩ = projRow f w b q := by
  unfold combRow
  rw [dif_pos (show (⟨q.val, hq⟩ : Fin 40).val < 32 from q.isLt)]

/-- Columns 32..35 of a node's forty numbers are its four source terms. -/
theorem slice_row_asrc (f : Fin 128 → EReal) (w : (⟨2, ![32, 128]⟩ : Shape).Idx → EReal) (b : (⟨1, ![32]⟩ : Shape).Idx → EReal)
    (a₁ a₂ : (⟨2, ![4, 32]⟩ : Shape).Idx → EReal) (h : Fin 4) (hh : 32 + h.val < 40) :
    combRow f w b a₁ a₂ ⟨32 + h.val, hh⟩ = attRow (projRow f w b) a₁ h := by
  have hlt : h.val < 4 := h.isLt
  unfold combRow
  rw [dif_neg (show ¬ (⟨32 + h.val, hh⟩ : Fin 40).val < 32 from by show ¬ 32 + h.val < 32; omega),
    dif_pos (show (⟨32 + h.val, hh⟩ : Fin 40).val < 36 from by show 32 + h.val < 36; omega)]
  exact congrArg (attRow (projRow f w b) a₁) (Fin.ext (by show 32 + h.val - 32 = h.val; omega))

/-- Columns 36..39 of a node's forty numbers are its four destination terms. -/
theorem slice_row_adst (f : Fin 128 → EReal) (w : (⟨2, ![32, 128]⟩ : Shape).Idx → EReal) (b : (⟨1, ![32]⟩ : Shape).Idx → EReal)
    (a₁ a₂ : (⟨2, ![4, 32]⟩ : Shape).Idx → EReal) (h : Fin 4) (hh : 36 + h.val < 40) :
    combRow f w b a₁ a₂ ⟨36 + h.val, hh⟩ = attRow (projRow f w b) a₂ h := by
  have hlt : h.val < 4 := h.isLt
  unfold combRow
  rw [dif_neg (show ¬ (⟨36 + h.val, hh⟩ : Fin 40).val < 32 from by show ¬ 36 + h.val < 32; omega),
    dif_neg (show ¬ (⟨36 + h.val, hh⟩ : Fin 40).val < 36 from by show ¬ 36 + h.val < 36; omega)]
  exact congrArg (attRow (projRow f w b) a₂) (Fin.ext (by show 36 + h.val - 36 = h.val; omega))

open Cert.KernelIdeal Cert.KernelIdeal.Facts₀ in
theorem slice_wh (x0 : (⟨Cert.ReferenceIdeal.S100000x128, .f32⟩ : BufTy).Contents (Elt Ideal))
    (x1 : (⟨Cert.ReferenceIdeal.S32x128, .f32⟩ : BufTy).Contents (Elt Ideal))
    (x2 : (⟨Cert.ReferenceIdeal.S32, .f32⟩ : BufTy).Contents (Elt Ideal))
    (x3 x4 : (⟨Cert.ReferenceIdeal.S4x32, .f32⟩ : BufTy).Contents (Elt Ideal)) :
    extractStridedSlice S100000x32 ![0, 0] (comb x0 x1 x2 x3 x4 : FVec Ideal S100000x40 .f32) slices_S100000x40_S100000x32_0_0
      = val_main_v8 (F := Ideal) x0 x1 x2 := by
  funext i
  obtain ⟨p, q, rfl⟩ : ∃ (p : Fin 100000) (q : Fin 32), i = ix2 p q := ⟨i 0, i 1, eq_ix2 i⟩
  have hq : q.val < 40 := by have := q.isLt; omega
  rw [extractStridedSlice_apply ![0, 0] (comb x0 x1 x2 x3 x4 : FVec Ideal S100000x40 .f32) slices_S100000x40_S100000x32_0_0
    (ix2 p q) (ix2 p (⟨q.val, hq⟩ : Fin 40)) (fun a => match a with
      | ⟨0, _⟩ => by show p.val = 0 + p.val; omega
      | ⟨1, _⟩ => by show q.val = 0 + q.val; omega)]
  rw [ref_wh]
  exact slice_row_wh (fun k => x0 (ix2 p k)) x1 x2 x3 x4 q hq

open Cert.KernelIdeal Cert.KernelIdeal.Facts₀ in
theorem slice_asrc (x0 : (⟨Cert.ReferenceIdeal.S100000x128, .f32⟩ : BufTy).Contents (Elt Ideal))
    (x1 : (⟨Cert.ReferenceIdeal.S32x128, .f32⟩ : BufTy).Contents (Elt Ideal))
    (x2 : (⟨Cert.ReferenceIdeal.S32, .f32⟩ : BufTy).Contents (Elt Ideal))
    (x3 x4 : (⟨Cert.ReferenceIdeal.S4x32, .f32⟩ : BufTy).Contents (Elt Ideal)) :
    extractStridedSlice S100000x4 ![0, 32] (comb x0 x1 x2 x3 x4 : FVec Ideal S100000x40 .f32) slices_S100000x40_S100000x4_0_32
      = val_main_v10 (F := Ideal) x0 x1 x2 x3 := by
  funext i
  obtain ⟨p, h, rfl⟩ : ∃ (p : Fin 100000) (h : Fin 4), i = ix2 p h := ⟨i 0, i 1, eq_ix2 i⟩
  have hh : 32 + h.val < 40 := by have := h.isLt; omega
  rw [extractStridedSlice_apply ![0, 32] (comb x0 x1 x2 x3 x4 : FVec Ideal S100000x40 .f32) slices_S100000x40_S100000x4_0_32
    (ix2 p h) (ix2 p (⟨32 + h.val, hh⟩ : Fin 40)) (fun a => match a with
      | ⟨0, _⟩ => by show p.val = 0 + p.val; omega
      | ⟨1, _⟩ => by show 32 + h.val = 32 + h.val; rfl)]
  rw [ref_asrc]
  exact slice_row_asrc (fun k => x0 (ix2 p k)) x1 x2 x3 x4 h hh

open Cert.KernelIdeal Cert.KernelIdeal.Facts₀ in
theorem slice_adst (x0 : (⟨Cert.ReferenceIdeal.S100000x128, .f32⟩ : BufTy).Contents (Elt Ideal))
    (x1 : (⟨Cert.ReferenceIdeal.S32x128, .f32⟩ : BufTy).Contents (Elt Ideal))
    (x2 : (⟨Cert.ReferenceIdeal.S32, .f32⟩ : BufTy).Contents (Elt Ideal))
    (x3 x4 : (⟨Cert.ReferenceIdeal.S4x32, .f32⟩ : BufTy).Contents (Elt Ideal)) :
    extractStridedSlice S100000x4 ![0, 36] (comb x0 x1 x2 x3 x4 : FVec Ideal S100000x40 .f32) slices_S100000x40_S100000x4_0_36
      = val_main_v12 (F := Ideal) x0 x1 x2 x4 := by
  funext i
  obtain ⟨p, h, rfl⟩ : ∃ (p : Fin 100000) (h : Fin 4), i = ix2 p h := ⟨i 0, i 1, eq_ix2 i⟩
  have hh : 36 + h.val < 40 := by have := h.isLt; omega
  rw [extractStridedSlice_apply ![0, 36] (comb x0 x1 x2 x3 x4 : FVec Ideal S100000x40 .f32) slices_S100000x40_S100000x4_0_36
    (ix2 p h) (ix2 p (⟨36 + h.val, hh⟩ : Fin 40)) (fun a => match a with
      | ⟨0, _⟩ => by show p.val = 0 + p.val; omega
      | ⟨1, _⟩ => by show 36 + h.val = 36 + h.val; rfl)]
  rw [ref_adst]
  exact slice_row_adst (fun k => x0 (ix2 p k)) x1 x2 x3 x4 h hh

end Cert.Bridge

end
-- ==== Proof.TakeInRange.lean ====
/-
  A row gather printed with its bounds mask, read where the mask never bites.

  The masked gather moves each index below zero up by the table's height, gathers, and keeps a gathered row only
  where the moved index lies in `0 ≤ · ≤ 99999`; elsewhere it writes a fixed fill pattern. When every index already
  lies in `[0, 100000)` nothing is moved (the comparison with zero is false), the mask is one at every edge (a
  conjunction, folded over an axis of extent one, of two comparisons that both hold), and the select returns the
  gathered row everywhere: the masked gather is the plain gather.

  That every entry of the edge list lies in `[0, 100000)` is the last conjunct of the precondition: a conjunction
  over all entries of `0 ≤ e` and `e < 100000`. A conjunction that came out one met only ones, so each entry
  satisfies both comparisons; the source and destination rows are entries of the edge list.
-/
import proofs.«408319_j53352083751473_3_alg».proof.Proof.TailK
import proofs.«408319_j53352083751473_3_alg».proof.Defs
import proofs.«408319_j53352083751473_3_alg».proof.Proof.Gen.Pre_finite_inputs
import Idealize.ShloMosaic.Lib.ReduceAll

noncomputable section

namespace Cert.KernelIdeal.Tail

open Cert.KernelIdeal Cert.KernelIdeal.Facts₀
open Idealize.ShloMosaic Idealize.SL.Sem

variable {F : FTy → Type} [FloatOps F]

/-! ## A conjunction of ones is one -/

/-- A left fold by `and` from one over words that are all one is one. -/
private theorem foldl_andi_ones {ι : Type} (f : ι → BitVec 1) :
    ∀ l : List ι, (∀ n ∈ l, f n = 1#1) → l.foldl (fun r n => IntOp.andi r (f n)) 1#1 = 1#1
  | [], _ => rfl
  | a :: l, h => by
    have ha : IntOp.andi 1#1 (f a) = 1#1 := by rw [h a List.mem_cons_self]; decide
    rw [List.foldl_cons, ha]
    exact foldl_andi_ones f l fun n hn => h n (List.mem_cons_of_mem _ hn)

/-- A reduction by `and`, from one, of an array that is one everywhere is one everywhere. -/
private theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x _ fun n _ => hx n

/-- A select whose condition is one everywhere is its first branch. -/
private theorem select_ones {s : Shape} {α : Type} (c : IVec s 1) (a b : s.Idx → α) (hc : ∀ p, c p = 1#1) : select c a b = a := by
  funext p
  unfold select Scalar.select
  rw [hc p]
  exact if_pos rfl

/-! ## The wrapped index -/

private theorem toInt_zero32 : (0#32 : BitVec 32).toInt = 0 := by decide
private theorem toInt_99999 : (99999#32 : BitVec 32).toInt = 99999 := by decide
private theorem toInt_100000 : (100000#32 : BitVec 32).toInt = 100000 := by decide

/-- An index that is not below zero is not moved. -/
private theorem wrap_scalar (v : BitVec 32) (h0 : 0 ≤ v.toInt) :
    Scalar.select (IntOp.cmpi .slt v 0#32) (IntOp.addi v 100000#32) v = v := by
  unfold Scalar.select
  refine if_neg fun hc => ?_
  have hc' : IntOp.cmpi .slt v 0#32 = 1#1 := hc
  rw [IntOp.cmpi_slt, toInt_zero32] at hc'
  omega

/-- The wrapped index column lies in the table where the index row does: each of its entries is an entry of the row,
    unmoved. -/
theorem wrapIdx_range (i : IVec S1600000 32) (hi : InTable i) (q : S1600000x1.Idx) :
    0 ≤ (wrapIdx i q).toInt ∧ (wrapIdx i q).toInt < 100000 := by
  unfold wrapIdx
  simp only [broadcastInDim, select, cmpi, addi, constantI]
  rw [wrap_scalar _ (hi _).1]
  exact hi _

/-- With every index in the table the wrapped index column is the index row itself, laid out as a column. -/
theorem wrapIdx_eq_bcast (i : IVec S1600000 32) (hi : InTable i) :
    wrapIdx i = broadcastInDim S1600000x1 ![0] bcast_S1600000_S1600000x1_0 i := by
  funext q
  unfold wrapIdx
  simp only [broadcastInDim, select, cmpi, addi, constantI]
  exact wrap_scalar _ (hi _).1

/-- The bounds mask of the wrapped index column is one at every edge. -/
theorem inTable_wrapIdx (i : IVec S1600000 32) (hi : InTable i) (j : S1600000.Idx) : inTable (wrapIdx i) j = 1#1 := by
  unfold inTable
  refine reduce_andi_ones _ _ _ _ rfl (fun q => ?_) j
  obtain ⟨h0, h1⟩ := wrapIdx_range i hi q
  simp only [andi, cmpi, broadcastInDim, constantI]
  rw [IntOp.andi_eq_one, IntOp.cmpi_sge, IntOp.cmpi_sle, toInt_zero32, toInt_99999]
  omega

/-! ## The masked gather is the gather -/

theorem take4_eq_gather (x : FVec F S100000x4 .f32) (i : IVec S1600000 32) (hi : InTable i) :
    take4 x i = Host.gather gather_S100000x4_S1600000x1_S1600000x4_1_0_n_n_0_1_14 x (wrapIdx i) := by
  unfold take4
  exact select_ones _ _ _ fun p => inTable_wrapIdx i hi _

theorem take32_eq_gather (x : FVec F S100000x32 .f32) (i : IVec S1600000 32) (hi : InTable i) :
    take32 x i = Host.gather gather_S100000x32_S1600000x1_S1600000x32_1_0_n_n_0_1_132 x (wrapIdx i) := by
  unfold take32
  exact select_ones _ _ _ fun p => inTable_wrapIdx i hi _

/-! ## The precondition, read at an entry of the edge list -/

/-- Where the printed predicate is one, every entry of the edge list lies in `[0, 100000)`. -/
theorem edges_of_fn [Cert.Pre_finite_inputs.Facts] (a0 : FVec F Cert.Pre_finite_inputs.S100000x128 .f32)
    (a1 : FVec F Cert.Pre_finite_inputs.S32x128 .f32) (a2 : FVec F Cert.Pre_finite_inputs.S32 .f32)
    (a3 a4 : FVec F Cert.Pre_finite_inputs.S4x32 .f32) (e : IVec Cert.Pre_finite_inputs.S2x1600000 32)
    (h : Cert.Pre_finite_inputs.fn (F := F) a0 a1 a2 a3 a4 e = fun _ => 1#1) (k : Cert.Pre_finite_inputs.S2x1600000.Idx) :
    0 ≤ (e k).toInt ∧ (e k).toInt < 100000 := by
  have hsub : Subsingleton Cert.Pre_finite_inputs.S_.Idx := ⟨fun a b => funext fun d => d.elim0⟩
  have e1 := congrFun h (fun d => d.elim0)
  unfold Cert.Pre_finite_inputs.fn Cert.Pre_finite_inputs.fn_part1 at e1
  dsimp only at e1
  have e2 := (IntOp.andi_eq_one.1 e1).2
  have e3 := Host.reduce_andi_all _ _ _ _ _ e2 k
  simp only [andi, cmpi, broadcastInDim, constantI] at e3
  rw [IntOp.andi_eq_one, IntOp.cmpi_sge, IntOp.cmpi_slt, toInt_zero32, toInt_100000] at e3
  exact e3

theorem inTable_of_pre (m : (ℓ : Loc Cert.KernelIdeal.nD Cert.KernelIdeal.τ Cert.KernelIdeal.sig) → Buf (Elt Ideal) ℓ)
    (h : Cert.Pre_KernelIdeal m) (c : Dev Cert.KernelIdeal.nD) :
    InTable (srcRow (m ((c.tc : Thread Cert.KernelIdeal.nD Cert.KernelIdeal.τ).loc Cert.KernelIdeal.main_arg5)))
    ∧ InTable (dstRow (m ((c.tc : Thread Cert.KernelIdeal.nD Cert.KernelIdeal.τ).loc Cert.KernelIdeal.main_arg5))) := by
  have H := fun k => edges_of_fn _ _ _ _ _ _ (h c) k
  constructor
  · intro j
    unfold srcRow shapeCast extractStridedSlice
    exact H _
  · intro j
    unfold dstRow shapeCast extractStridedSlice
    exact H _

end Cert.KernelIdeal.Tail

end
-- ==== Proof.ScatterReshape.lean ====
/-
  Summing rows per destination commutes with laying the rows out flat.

  The messages form an array of 1600000 slabs of 4 × 32 numbers. One program flattens every slab to a row of
  128 numbers and then adds the rows whose edge points at node n into row n of a zero array of 100000 rows;
  the other adds the slabs per node into a zero array of 100000 slabs and flattens afterwards. Over the extended
  reals a scatter-add is the exact sum of the updates that land on an element, so both results are, at the flat
  position (n, 32·h + d), the sum of the messages (e, h, d) over the edges e whose index is n: the row-major
  correspondence (e, h, d) ↔ (e, 32·h + d) between the two update arrays carries "lands on (n, h, d)" to
  "lands on (n, 32·h + d)", because both scatters read the same signed start index for edge e and add the
  window coordinate to it.
-/
import Idealize.ShloMosaic.PureOps.Ideal
import Idealize.ShloMosaic.PureOps.Ideal.Laws
import Idealize.ShloMosaic.Lib.Pipeline.Value
import Idealize.ShloMosaic.Lib.ValueIdx
import proofs.«408319_j53352083751473_3_alg».proof.Proof.TailK
import proofs.«408319_j53352083751473_3_alg».proof.Proof.Gen.ReferenceIdeal

noncomputable section

namespace Cert.Bridge

open Idealize.ShloMosaic
open Idealize.ShloMosaic.ValueIdx

/-! ## Where an update lands -/

/-- An update lands on element i exactly when, on every axis, the signed start plus the window coordinate is
    i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h]
    constructor
    · intro he a
      have h1 := congrFun (Option.some.inj he) a
      have h2 : (d.start j idx a + (d.window j a : Int)).toNat = (i a).val := congrArg Fin.val h1
      have := h a
      omega
    · intro he
      refine congrArg some (funext fun a => Fin.ext ?_)
      show (d.start j idx a + (d.window j a : Int)).toNat = (i a).val
      have := he a
      omega
  · rw [dif_neg h]
    constructor
    · intro he; cases he
    · intro he
      refine absurd (fun a => ?_) h
      have := he a
      have := (i a).isLt
      constructor <;> omega

/-! ## The two scatters' dimension numbers, axis by axis -/

/-- The flat scatter: rows of 128 numbers into an array of 100000 rows. -/
abbrev dK : ScatterDims Cert.KernelIdeal.S100000x128 Cert.KernelIdeal.S1600000x1 Cert.KernelIdeal.S1600000x128 :=
  Cert.KernelIdeal.scatter_S100000x128_S1600000x1_S1600000x128_1_0_0_1

/-- The slab scatter: slabs of 4 × 32 numbers into an array of 100000 slabs. -/
abbrev dR : ScatterDims Cert.ReferenceIdeal.S100000x4x32 Cert.ReferenceIdeal.S1600000x1 Cert.ReferenceIdeal.S1600000x4x32 :=
  Cert.ReferenceIdeal.scatter_S100000x4x32_S1600000x1_S1600000x4x32_12_0_0_1

/-- Edge e's entry of the index column. -/
abbrev col (e : Fin 1600000) : (⟨2, ![1600000, 1]⟩ : Shape).Idx := ix2 (n0 := 1600000) (n1 := 1) e 0

/-- The flat scatter reads, for update (e, c), the index column's entry of edge e. -/
theorem dK_siIdx (j : Cert.KernelIdeal.S1600000x128.Idx) :
    dK.siIdx j ⟨List.idxOf (0 : Fin 2) dK.scatterDimsToOperandDims,
      List.idxOf_lt_length_iff.2 (List.mem_singleton.mpr rfl)⟩ = col (j 0) := by
  funext b; refine Fin.ext ?_
  match b with
  | ⟨0, _⟩ => rfl
  | ⟨1, _⟩ => rfl

theorem dK_start0 {w : Nat} (j : Cert.KernelIdeal.S1600000x128.Idx) (idx : IVec Cert.KernelIdeal.S1600000x1 w) :
    dK.start j idx (0 : Fin 2) = (idx (col (j 0))).toInt := by
  unfold ScatterDims.start
  rw [dif_pos (show (0 : Fin 2) ∈ dK.scatterDimsToOperandDims from List.mem_singleton.mpr rfl), dK_siIdx]

theorem dK_start1 {w : Nat} (j : Cert.KernelIdeal.S1600000x128.Idx) (idx : IVec Cert.KernelIdeal.S1600000x1 w) :
    dK.start j idx (1 : Fin 2) = 0 := rfl

theorem dK_window0 (j : Cert.KernelIdeal.S1600000x128.Idx) : dK.window j (0 : Fin 2) = 0 := rfl

theorem dK_window1 (j : Cert.KernelIdeal.S1600000x128.Idx) : dK.window j (1 : Fin 2) = (j 1).val := rfl

/-- A row update (e, c) lands on (n, c') exactly when edge e's index is n and c = c'. -/
theorem dK_lands {w : Nat} (j : Cert.KernelIdeal.S1600000x128.Idx) (idx : IVec Cert.KernelIdeal.S1600000x1 w)
    (i : Cert.KernelIdeal.S100000x128.Idx) :
    dK.resultIdx? j idx = some i ↔ (idx (col (j 0))).toInt = ((i 0).val : Int) ∧ (j 1).val = (i 1).val := by
  rw [resultIdx?_eq_some_iff]
  constructor
  · intro h
    have h0 := h (0 : Fin 2)
    have h1 := h (1 : Fin 2)
    rw [dK_start0, dK_window0] at h0
    rw [dK_start1, dK_window1] at h1
    constructor <;> omega
  · rintro ⟨h0, h1⟩ a
    match a with
    | ⟨0, _⟩ =>
      show dK.start j idx (0 : Fin 2) + (dK.window j (0 : Fin 2) : Int) = ((i 0).val : Int)
      rw [dK_start0, dK_window0]; omega
    | ⟨1, _⟩ =>
      show dK.start j idx (1 : Fin 2) + (dK.window j (1 : Fin 2) : Int) = ((i 1).val : Int)
      rw [dK_start1, dK_window1]; omega

/-- The slab scatter reads, for update (e, h, c), the index column's entry of edge e. -/
theorem dR_siIdx (j : Cert.ReferenceIdeal.S1600000x4x32.Idx) :
    dR.siIdx j ⟨List.idxOf (0 : Fin 3) dR.scatterDimsToOperandDims,
      List.idxOf_lt_length_iff.2 (List.mem_singleton.mpr rfl)⟩ = col (j 0) := by
  funext b; refine Fin.ext ?_
  match b with
  | ⟨0, _⟩ => rfl
  | ⟨1, _⟩ => rfl

theorem dR_start0 {w : Nat} (j : Cert.ReferenceIdeal.S1600000x4x32.Idx) (idx : IVec Cert.ReferenceIdeal.S1600000x1 w) :
    dR.start j idx (0 : Fin 3) = (idx (col (j 0))).toInt := by
  unfold ScatterDims.start
  rw [dif_pos (show (0 : Fin 3) ∈ dR.scatterDimsToOperandDims from List.mem_singleton.mpr rfl), dR_siIdx]

theorem dR_start1 {w : Nat} (j : Cert.ReferenceIdeal.S1600000x4x32.Idx) (idx : IVec Cert.ReferenceIdeal.S1600000x1 w) :
    dR.start j idx (1 : Fin 3) = 0 := rfl

theorem dR_start2 {w : Nat} (j : Cert.ReferenceIdeal.S1600000x4x32.Idx) (idx : IVec Cert.ReferenceIdeal.S1600000x1 w) :
    dR.start j idx (2 : Fin 3) = 0 := rfl

theorem dR_window0 (j : Cert.ReferenceIdeal.S1600000x4x32.Idx) : dR.window j (0 : Fin 3) = 0 := rfl

theorem dR_window1 (j : Cert.ReferenceIdeal.S1600000x4x32.Idx) : dR.window j (1 : Fin 3) = (j 1).val := rfl

theorem dR_window2 (j : Cert.ReferenceIdeal.S1600000x4x32.Idx) : dR.window j (2 : Fin 3) = (j 2).val := rfl

/-- A slab update (e, h, c) lands on (n, h', c') exactly when edge e's index is n, h = h' and c = c'. -/
theorem dR_lands {w : Nat} (j : Cert.ReferenceIdeal.S1600000x4x32.Idx) (idx : IVec Cert.ReferenceIdeal.S1600000x1 w)
    (i : Cert.ReferenceIdeal.S100000x4x32.Idx) :
    dR.resultIdx? j idx = some i ↔
      (idx (col (j 0))).toInt = ((i 0).val : Int) ∧ (j 1).val = (i 1).val ∧ (j 2).val = (i 2).val := by
  rw [resultIdx?_eq_some_iff]
  constructor
  · intro h
    have h0 := h (0 : Fin 3)
    have h1 := h (1 : Fin 3)
    have h2 := h (2 : Fin 3)
    rw [dR_start0, dR_window0] at h0
    rw [dR_start1, dR_window1] at h1
    rw [dR_start2, dR_window2] at h2
    refine ⟨?_, ?_, ?_⟩ <;> omega
  · rintro ⟨h0, h1, h2⟩ a
    match a with
    | ⟨0, _⟩ =>
      show dR.start j idx (0 : Fin 3) + (dR.window j (0 : Fin 3) : Int) = ((i 0).val : Int)
      rw [dR_start0, dR_window0]; omega
    | ⟨1, _⟩ =>
      show dR.start j idx (1 : Fin 3) + (dR.window j (1 : Fin 3) : Int) = ((i 1).val : Int)
      rw [dR_start1, dR_window1]; omega
    | ⟨2, _⟩ =>
      show dR.start j idx (2 : Fin 3) + (dR.window j (2 : Fin 3) : Int) = ((i 2).val : Int)
      rw [dR_start2, dR_window2]; omega

/-! ## The row-major correspondence between rows of 128 and slabs of 4 × 32 -/

/-- The index of the array of N slabs of 4 × 32 that has the same row-major position as the index (n, c) of the
    array of N rows of 128 is (n, h, d) with 32·h + d = c. -/
theorem reshape_coords {N : Nat} (h : (⟨2, ![N, 128]⟩ : Shape).numel = (⟨3, ![N, 4, 32]⟩ : Shape).numel)
    (j : (⟨2, ![N, 128]⟩ : Shape).Idx) :
    ((Shape.reshapeEquiv h j) 0).val = (j 0).val ∧
      ((Shape.reshapeEquiv h j) 1).val * 32 + ((Shape.reshapeEquiv h j) 2).val = (j 1).val ∧
      ((Shape.reshapeEquiv h j) 1).val < 4 ∧ ((Shape.reshapeEquiv h j) 2).val < 32 := by
  have hr : ((⟨3, ![N, 4, 32]⟩ : Shape).rowMajor (Shape.reshapeEquiv h j) : Nat) = (⟨2, ![N, 128]⟩ : Shape).rowMajor j :=
    Shape.rowMajor_reshapeEquiv h j
  have h3 : ((⟨3, ![N, 4, 32]⟩ : Shape).rowMajor (Shape.reshapeEquiv h j)).val
      = (((Shape.reshapeEquiv h j) 0).val * 4 + ((Shape.reshapeEquiv h j) 1).val) * 32 + ((Shape.reshapeEquiv h j) 2).val :=
    Shape.rowMajor_val_three (Shape.reshapeEquiv h j)
  have h2 : ((⟨2, ![N, 128]⟩ : Shape).rowMajor j).val = (j 0).val * 128 + (j 1).val := Shape.rowMajor_val_two j
  have b1 : ((Shape.reshapeEquiv h j) 1).val < 4 := ((Shape.reshapeEquiv h j) 1).isLt
  have b2 : ((Shape.reshapeEquiv h j) 2).val < 32 := ((Shape.reshapeEquiv h j) 2).isLt
  have b3 : (j 1).val < 128 := (j 1).isLt
  rw [h3, h2] at hr
  refine ⟨?_, ?_, b1, b2⟩ <;> omega

/-! ## The two sums agree -/

/-- At every flat position, the rows that land there sum to what the slabs that land on the matching slab position
    sum to: the row-major correspondence of the updates matches the two landing conditions. -/
theorem scatterAdd_reshape {w : Nat} (x : Cert.KernelIdeal.S100000x128.Idx → EReal)
    (y : Cert.ReferenceIdeal.S100000x4x32.Idx → EReal)
    (idx : IVec Cert.KernelIdeal.S1600000x1 w) (msg : Cert.KernelIdeal.S1600000x4x32.Idx → EReal)
    (hU : Cert.KernelIdeal.S1600000x4x32.ShapeCasts Cert.KernelIdeal.S1600000x128)
    (hS : Cert.ReferenceIdeal.S100000x4x32.ShapeCasts Cert.ReferenceIdeal.S100000x128)
    (hxy : ∀ i, x i = y (Shape.reshapeEquiv hS i)) :
    Ideal.hostScatterAdd dK x idx (shapeCast Cert.KernelIdeal.S1600000x128 msg hU)
      = shapeCast Cert.ReferenceIdeal.S100000x128 (Ideal.hostScatterAdd dR y idx msg) hS := by
  funext i
  show Ideal.hostScatterAdd dK x idx (shapeCast Cert.KernelIdeal.S1600000x128 msg hU) i
    = Ideal.hostScatterAdd dR y idx msg (Shape.reshapeEquiv hS i)
  unfold Ideal.hostScatterAdd
  rw [hxy i]
  refine congrArg (y (Shape.reshapeEquiv hS i) + ·) ?_
  refine Finset.sum_equiv (Shape.reshapeEquiv hU) (fun j => ?_) (fun j _ => rfl)
  rw [Finset.mem_filter, Finset.mem_filter, dK_lands, dR_lands]
  obtain ⟨a0, a1, a2, a3⟩ := reshape_coords hU j
  obtain ⟨c0, c1, c2, c3⟩ := reshape_coords hS i
  have e0 : (Shape.reshapeEquiv hU j) 0 = j 0 := Fin.ext a0
  rw [e0]
  simp only [Finset.mem_univ, true_and]
  constructor
  · rintro ⟨p0, p1⟩
    refine ⟨?_, ?_, ?_⟩ <;> omega
  · rintro ⟨p0, p1, p2⟩
    refine ⟨?_, ?_⟩ <;> omega

/-- The messages flattened and then summed per destination are the messages summed per destination and then
    flattened. -/
theorem aggregate_eq_reshape (msg : FVec Ideal Cert.KernelIdeal.S1600000x4x32 .f32) (dst : IVec Cert.KernelIdeal.S1600000 32) :
    Cert.KernelIdeal.Tail.aggregate (F := Ideal) msg dst
      = shapeCast Cert.ReferenceIdeal.S100000x128
          (Host.scatterAdd Cert.ReferenceIdeal.scatter_S100000x4x32_S1600000x1_S1600000x4x32_12_0_0_1
            (broadcastInDim Cert.ReferenceIdeal.S100000x4x32 ![] Cert.ReferenceIdeal.Facts₀.bcast_S_S100000x4x32 (constant Cert.ReferenceIdeal.S_ .f32 0x00000000#32))
            (broadcastInDim Cert.ReferenceIdeal.S1600000x1 ![0] Cert.ReferenceIdeal.Facts₀.bcast_S1600000_S1600000x1_0 dst)
            msg)
          Cert.ReferenceIdeal.Facts₀.shapeCasts_S100000x4x32_S100000x128 :=
  scatterAdd_reshape _ _ _ msg _ _ (fun i => rfl)

end Cert.Bridge

end
-- ==== Proof.RefTail.lean ====
/-
  The reference program after its dense part, as a function of what it reads: the projected rows, the two attention
  terms, and the source and destination rows of the edge list. Its row gathers wrap negative indices by the table's
  height and gather; its last step sums the [4, 32] message slabs per destination and then lays each node's slab out
  as one row of 128 numbers.
-/
import proofs.«408319_j53352083751473_3_alg».proof.Proof.Gen.ReferenceIdeal.Read

set_option maxRecDepth 16384

noncomputable section

namespace Cert.ReferenceIdeal.RefValue

open Cert.ReferenceIdeal Cert.ReferenceIdeal.Facts₀
open Idealize.ShloMosaic Idealize.ShloMosaic.TcCoe Idealize.SL.Sem

variable {F : FTy → Type} [FloatOps F]

/-- The index column a gather reads: each index below zero moved up by the table's height. -/
def wrapIdx (i : IVec S1600000 32) : IVec S1600000x1 32 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

/-- The attention logits after the leaky rectifier, given the two gathered terms. -/
def leaky (gs gd : FVec F S1600000x4 .f32) : FVec F S1600000x4 .f32 :=
  select (cmpf .ogt (addf gs gd) (broadcastInDim S1600000x4 ![] bcast_S_S1600000x4 (constant S_ .f32 0x00000000#32)))
    (addf gs gd)
    (mulf (broadcastInDim S1600000x4 ![] bcast_S_S1600000x4 (constant S_ .f32 0x3E4CCCCD#32)) (addf gs gd))

/-- The exponential of the logits shifted by their maximum over all edges and heads. -/
def expShift (e : FVec F S1600000x4 .f32) : FVec F S1600000x4 .f32 :=
  Host.exp (subf e (broadcastInDim S1600000x4 ![] bcast_S_S1600000x4
    (Host.reduce FloatOps.maximumf e (constant S_ .f32 0xFF800000#32) reducesTo_S1600000x4_S_d0_1 h_S_)))

/-- The exponentials summed per source node. -/
def denom (p : FVec F S1600000x4 .f32) (src : IVec S1600000 32) : FVec F S100000x4 .f32 :=
  Host.scatterAdd scatter_S100000x4_S1600000x1_S1600000x4_1_0_0_1
    (broadcastInDim S100000x4 ![] bcast_S_S100000x4 (constant S_ .f32 0x00000000#32))
    (broadcastInDim S1600000x1 ![0] bcast_S1600000_S1600000x1_0 src) p

/-- The attention weights: each exponential over its source's sum plus the small constant. -/
def weights (p dg : FVec F S1600000x4 .f32) : FVec F S1600000x4 .f32 :=
  Host.divf p (addf dg (broadcastInDim S1600000x4 ![] bcast_S_S1600000x4 (constant S_ .f32 0x24E69595#32)))

/-- The messages: per edge and head, the gathered projected row times the head's weight. -/
def messages (wg : FVec F S1600000x32 .f32) (a : FVec F S1600000x4 .f32) : FVec F S1600000x4x32 .f32 :=
  mulf (broadcastInDim S1600000x4x32 ![0, 1, 2] bcast_S1600000x1x32_S1600000x4x32_0_1_2
      (broadcastInDim S1600000x1x32 ![0, 2] bcast_S1600000x32_S1600000x1x32_0_2 wg))
    (broadcastInDim S1600000x4x32 ![0, 1, 2] bcast_S1600000x4x1_S1600000x4x32_0_1_2
      (broadcastInDim S1600000x4x1 ![0, 1] bcast_S1600000x4_S1600000x4x1_0_1 a))

/-- The message slabs summed per destination node, then each node's slab as one row. -/
def aggregate (msg : FVec F S1600000x4x32 .f32) (dst : IVec S1600000 32) : FVec F S100000x128 .f32 :=
  shapeCast S100000x128
    (Host.scatterAdd scatter_S100000x4x32_S1600000x1_S1600000x4x32_12_0_0_1
      (broadcastInDim S100000x4x32 ![] bcast_S_S100000x4x32 (constant S_ .f32 0x00000000#32))
      (broadcastInDim S1600000x1 ![0] bcast_S1600000_S1600000x1_0 dst) msg)
    shapeCasts_S100000x4x32_S100000x128

/-- The whole tail of the reference. -/
def tailR (wh : FVec F S100000x32 .f32) (asrc adst : FVec F S100000x4 .f32) (src dst : IVec S1600000 32) :
    FVec F S100000x128 .f32 :=
  let p := expShift (leaky (Host.gather gather_S100000x4_S1600000x1_S1600000x4_1_0_n_n_0_1_14 asrc (wrapIdx src))
    (Host.gather gather_S100000x4_S1600000x1_S1600000x4_1_0_n_n_0_1_14 adst (wrapIdx dst)))
  aggregate (messages (Host.gather gather_S100000x32_S1600000x1_S1600000x32_1_0_n_n_0_1_132 wh (wrapIdx src))
    (weights p (Host.gather gather_S100000x4_S1600000x1_S1600000x4_1_0_n_n_0_1_14 (denom p src) (wrapIdx src)))) dst

/-- The generated run's result term is the tail of the reference's three dense stages and its two edge rows. -/
theorem res_eq (m : (ℓ : Loc nD τ sig) → Buf (Elt F) ℓ) (c : Dev nD) :
    Cert.ReferenceIdeal.Value.res_main_v65 (F := F) m c
      = tailR
          (Read.val_main_v8 (F := F) (m ((c.tc : Thread nD τ).loc main_arg0)) (m ((c.tc : Thread nD τ).loc main_arg1)) (m ((c.tc : Thread nD τ).loc main_arg2)))
          (Read.val_main_v10 (F := F) (m ((c.tc : Thread nD τ).loc main_arg0)) (m ((c.tc : Thread nD τ).loc main_arg1)) (m ((c.tc : Thread nD τ).loc main_arg2)) (m ((c.tc : Thread nD τ).loc main_arg3)))
          (Read.val_main_v12 (F := F) (m ((c.tc : Thread nD τ).loc main_arg0)) (m ((c.tc : Thread nD τ).loc main_arg1)) (m ((c.tc : Thread nD τ).loc main_arg2)) (m ((c.tc : Thread nD τ).loc main_arg4)))
          (Read.val_main_v1 (F := F) (m ((c.tc : Thread nD τ).loc main_arg5)))
          (Read.val_main_v3 (F := F) (m ((c.tc : Thread nD τ).loc main_arg5))) := by
  unfold Cert.ReferenceIdeal.Value.res_main_v65 tailR aggregate messages weights denom expShift leaky wrapIdx
  unfold Read.val_main_v8 Read.val_main_v10 Read.val_main_v12 Read.val_main_v1 Read.val_main_v3
  unfold Read.val_main_v5 Read.val_main_v7 Read.val_main_v9 Read.val_main_v11 Read.val_main_v0 Read.val_main_v2
  unfold Read.val_main_v4 Read.val_main_v6
  rfl

end Cert.ReferenceIdeal.RefValue

end
-- ==== Proof.TailEq.lean ====
/-
  The two programs' tails agree when every entry of the edge list names a node. Then each masked row gather of the
  kernel program is the plain gather the reference performs at the same wrapped index column; and summing the
  128-number message rows per destination is summing the [4, 32] slabs per destination and laying each node's slab
  out as a row. Everything else in the two tails is the same chain of operations.
-/
import proofs.«408319_j53352083751473_3_alg».proof.Proof.TailK
import proofs.«408319_j53352083751473_3_alg».proof.Proof.TakeInRange
import proofs.«408319_j53352083751473_3_alg».proof.Proof.ScatterReshape
import proofs.«408319_j53352083751473_3_alg».proof.Proof.RefTail

set_option maxRecDepth 16384

noncomputable section

namespace Cert.Bridge

open Idealize.ShloMosaic

theorem tail_eq (wh : FVec Ideal Cert.KernelIdeal.S100000x32 .f32) (asrc adst : FVec Ideal Cert.KernelIdeal.S100000x4 .f32)
    (src dst : IVec Cert.KernelIdeal.S1600000 32)
    (hs : Cert.KernelIdeal.Tail.InTable src) (hd : Cert.KernelIdeal.Tail.InTable dst) :
    Cert.KernelIdeal.Tail.tailK (F := Ideal) wh asrc adst src dst
      = Cert.ReferenceIdeal.RefValue.tailR (F := Ideal) wh asrc adst src dst := by
  unfold Cert.KernelIdeal.Tail.tailK
  dsimp only
  rw [Cert.KernelIdeal.Tail.take4_eq_gather asrc src hs, Cert.KernelIdeal.Tail.take4_eq_gather adst dst hd,
    Cert.KernelIdeal.Tail.take32_eq_gather wh src hs, Cert.KernelIdeal.Tail.take4_eq_gather _ src hs,
    aggregate_eq_reshape]
  unfold Cert.ReferenceIdeal.RefValue.tailR Cert.ReferenceIdeal.RefValue.aggregate
  dsimp only
  unfold Cert.KernelIdeal.Tail.messages Cert.KernelIdeal.Tail.weights Cert.KernelIdeal.Tail.denom
    Cert.KernelIdeal.Tail.expShift Cert.KernelIdeal.Tail.leaky Cert.KernelIdeal.Tail.wrapIdx
  unfold Cert.ReferenceIdeal.RefValue.messages Cert.ReferenceIdeal.RefValue.weights Cert.ReferenceIdeal.RefValue.denom
    Cert.ReferenceIdeal.RefValue.expShift Cert.ReferenceIdeal.RefValue.leaky Cert.ReferenceIdeal.RefValue.wrapIdx
  rfl

end Cert.Bridge

end
-- ==== Proof.RefSide.lean ====
/-
  The reference program's value: its result array as a function of the argument arrays, read one
  host operation at a time.
-/
import proofs.«408319_j53352083751473_3_alg».proof.Proof.Gen.ReferenceIdeal.Read

noncomputable section

namespace Cert.ReferenceIdeal.RefValue

end Cert.ReferenceIdeal.RefValue

end
-- ==== Proof.lean ====
/-
  A graph attention layer: project the node features (Wh = features · Wᵀ + b), form the per-head attention terms
  (a_src = Wh · att_srcᵀ, a_dst = Wh · att_dstᵀ), and per edge (src, dst) and head take the leaky rectifier of
  a_src[src] + a_dst[dst], shift by the global maximum, exponentiate, divide by the sum over the edges that share
  the source (plus a small constant), weight the source's projected row by it, and sum the weighted rows per
  destination. The kernel program computes the three dense arrays in one region, ten thousand nodes per grid point,
  side by side in one array of forty columns, and does the rest in host lines; the reference does everything in host
  lines.

  Over the extended reals the two agree when every entry of the edge list names a node: the region's array is, row
  by row, the reference's three dense arrays (changes of float format are the identity; a matrix product into a zero
  accumulator is the sum of products); the kernel program's masked row gathers are then the reference's plain
  gathers; summing 128-number message rows per destination is summing [4, 32] slabs and laying each out as a row;
  every other host line is the same in both.

  The frames: each program runs to the end without a fault and leaves its argument arrays as launched — the region
  only reads its five staged inputs, and no host line writes an argument.
-/
import proofs.«408319_j53352083751473_3_alg».proof.Defs
import proofs.«408319_j53352083751473_3_alg».proof.Proof.Gen.Kernel
import proofs.«408319_j53352083751473_3_alg».proof.Proof.Gen.KernelIdeal
import proofs.«408319_j53352083751473_3_alg».proof.Proof.Gen.ReferenceIdeal
import proofs.«408319_j53352083751473_3_alg».proof.Proof.Gen.Pre_finite_inputs
import proofs.«408319_j53352083751473_3_alg».proof.Proof.BitsRun
import proofs.«408319_j53352083751473_3_alg».proof.Proof.IdealResult
import proofs.«408319_j53352083751473_3_alg».proof.Proof.IdealArr
import proofs.«408319_j53352083751473_3_alg».proof.Proof.RefRow
import proofs.«408319_j53352083751473_3_alg».proof.Proof.TailEq
import proofs.«408319_j53352083751473_3_alg».proof.Proof.TakeInRange
import proofs.«408319_j53352083751473_3_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The idealized kernel program's result, under the precondition, is the reference's tail of the reference's three
    dense stages of the same argument arrays and of the two rows of the same edge list. -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Hand.endV m c Cert.KernelIdeal.main_v36
      = Cert.ReferenceIdeal.RefValue.tailR (F := Ideal)
          (Cert.ReferenceIdeal.Read.val_main_v8 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)))
          (Cert.ReferenceIdeal.Read.val_main_v10 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3)))
          (Cert.ReferenceIdeal.Read.val_main_v12 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg4)))
          (Cert.KernelIdeal.Tail.srcRow (m ((c.tc : Thread Cert.KernelIdeal.nD Cert.KernelIdeal.τ).loc Cert.KernelIdeal.main_arg5)))
          (Cert.KernelIdeal.Tail.dstRow (m ((c.tc : Thread Cert.KernelIdeal.nD Cert.KernelIdeal.τ).loc Cert.KernelIdeal.main_arg5))) := by
  obtain ⟨hs, hd⟩ := Cert.KernelIdeal.Tail.inTable_of_pre m hpre c
  rw [Cert.KernelIdeal.Hand.endV_v36, Cert.KernelIdeal.Hand.arr_eq, Cert.Bridge.slice_wh, Cert.Bridge.slice_asrc,
    Cert.Bridge.slice_adst]
  exact Cert.Bridge.tail_eq _ _ _ _ _ hs hd

/-- The two idealized programs, run from memories that agree on the arguments, end with equal results. -/
theorem algebraic : Cert.algebraic_KernelIdeal_ReferenceIdeal := by
  intro m ρ m' ρ' hpre hagree
  refine ⟨fun c => Cert.KernelIdeal.Hand.endV m c Cert.KernelIdeal.main_v36, ?_, ?_⟩
  · exact (θ_run Cert.KernelIdeal.defs _ _).mono (fun r h c => Cert.KernelIdeal.Hand.post_reads m r h c)
      (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    show Cert.ReferenceIdeal.Value.res_main_v65 m' c = Cert.KernelIdeal.Hand.endV m c Cert.KernelIdeal.main_v36
    rw [result_eq m hpre c, Cert.ReferenceIdeal.RefValue.res_eq, (hagree c).1, (hagree c).2.1, (hagree c).2.2.1,
      (hagree c).2.2.2.1, (hagree c).2.2.2.2.1, (hagree c).2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
